-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v24_1)) (v1 : (c : Dev Cert.KernelIdeal.nD) → Buf (Elt Ideal) ((c.tc : Thread Cert.KernelIdeal.nD Cert.KernelIdeal.τ).loc Cert.KernelIdeal.main_v24_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_1) = v0 c
          ∧ r.2.mem ((c.tc : Thread Cert.KernelIdeal.nD Cert.KernelIdeal.τ).loc Cert.KernelIdeal.main_v24_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S32768x1024 : Shape := ⟨2, ![32768, 1024]⟩
abbrev S1024x512 : Shape := ⟨2, ![1024, 512]⟩
abbrev S1024 : Shape := ⟨1, ![1024]⟩
abbrev S1024x1024 : Shape := ⟨2, ![1024, 1024]⟩
abbrev S128x1024 : Shape := ⟨2, ![128, 1024]⟩
abbrev S128 : Shape := ⟨1, ![128]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S32768x1024 : S_.BroadcastsInDim S32768x1024 (![] : Fin 0 → Fin S32768x1024.rank)
  reducesTo_S32768x1024_S_d0_1 : S32768x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S128x1024 : S_.BroadcastsInDim S128x1024 (![] : Fin 0 → Fin S128x1024.rank)
  reducesTo_S128x1024_S_d0_1 : S128x1024.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  main_v88

def fn_part4 {F : FTy → Type} [FloatOps F] (main_arg14 : FVec F S1024x1024 .f32) (main_arg15 : FVec F S1024 .f32) (main_arg16 : FVec F S128x1024 .f32) (main_arg17 : FVec F S128 .f32) (main_v63 : IVec S_ 1) (main_v67 : IVec S_ 1) : IVec S_ 1 :=
  let main_v68 : IVec S_ 1 := andi main_v63 main_v67
  let main_v69 : FVec F S1024x1024 .f32 := Host.absf main_arg14
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S128x1024 .f32 := Host.absf main_arg16
  let main_cst_30 : FVec F S_ .f32 := constant S_ .f32 0x7F800000#32
  let main_v80 : FVec F S128x1024 .f32 := broadcastInDim S128x1024 ![] bcast_S_S128x1024 main_cst_30
  let main_v81 : IVec S128x1024 1 := cmpf .olt main_v79 main_v80
  let main_c_31 : IVec S_ 1 := constantI S_ 1 1#1
  let main_v82 : IVec S_ 1 := (fun x v => Host.reduce IntOp.andi x v reducesTo_S128x1024_S_d0_1 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_v83 main_v84 main_cst_32

def fn_part3 {F : FTy → Type} [FloatOps F] (main_arg11 : FVec F S1024 .f32) (main_arg12 : FVec F S1024x1024 .f32) (main_arg13 : FVec F S1024 .f32) (main_arg14 : FVec F S1024x1024 .f32) (main_arg15 : FVec F S1024 .f32) (main_arg16 : FVec F S128x1024 .f32) (main_arg17 : FVec F S128 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_arg17 main_v63 main_v67

def fn_part2 {F : FTy → Type} [FloatOps F] (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_arg14 : FVec F S1024x1024 .f32) (main_arg15 : FVec F S1024 .f32) (main_arg16 : FVec F S128x1024 .f32) (main_arg17 : FVec F S128 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_arg15 main_arg16 main_arg17 main_v48 main_v49 main_v50

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_arg14 : FVec F S1024x1024 .f32) (main_arg15 : FVec F S1024 .f32) (main_arg16 : FVec F S128x1024 .f32) (main_arg17 : FVec F S128 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S32768x512 .f32) (main_arg1 : FVec F S32768x1024 .f32) (main_arg2 : FVec F S1024x512 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_arg14 : FVec F S1024x1024 .f32) (main_arg15 : FVec F S1024 .f32) (main_arg16 : FVec F S128x1024 .f32) (main_arg17 : FVec F S128 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x1024 .f32 := Host.absf main_arg1
  let main_cst_0 : FVec F S_ .f32 := constant S_ .f32 0x7F800000#32
  let main_v5 : FVec F S32768x1024 .f32 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S32768x512 : Shape := ⟨2, ![32768, 512]⟩
abbrev S32768x1024 : Shape := ⟨2, ![32768, 1024]⟩
abbrev S1024x512 : Shape := ⟨2, ![1024, 512]⟩
abbrev S1024 : Shape := ⟨1, ![1024]⟩
abbrev S1024x1024 : Shape := ⟨2, ![1024, 1024]⟩
abbrev S128x1024 : Shape := ⟨2, ![128, 1024]⟩
abbrev S128 : Shape := ⟨1, ![128]⟩
abbrev S512x1024 : Shape := ⟨2, ![512, 1024]⟩
abbrev S1024x128 : Shape := ⟨2, ![1024, 128]⟩
abbrev S1x1024 : Shape := ⟨2, ![1, 1024]⟩
abbrev S1x128 : Shape := ⟨2, ![1, 128]⟩
abbrev S32768x128 : Shape := ⟨2, ![32768, 128]⟩
abbrev S512x512 : Shape := ⟨2, ![512, 512]⟩
abbrev S512x128 : Shape := ⟨2, ![512, 128]⟩

abbrev nBuf : Space → Nat
  | .hbm => 44
  | .vmem => 24
  | .smem => 0
  | _ => 0

abbrev bufTy : (tb : Table) → Fin (tcTables nBuf tb) → BufTy
  | .hbm, ⟨0, _⟩ => ⟨S32768x512, .f32⟩
  | .hbm, ⟨1, _⟩ => ⟨S32768x1024, .f32⟩
  | .hbm, ⟨2, _⟩ => ⟨S1024x512, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S1024, .f32⟩
  | .hbm, ⟨16, _⟩ => ⟨S128x1024, .f32⟩
  | .hbm, ⟨17, _⟩ => ⟨S128, .f32⟩
  | .hbm, ⟨18, _⟩ => ⟨S512x1024, .f32⟩
  | .hbm, ⟨19, _⟩ => ⟨S512x1024, .bf16⟩
  | .hbm, ⟨20, _⟩ => ⟨S1024x1024, .f32⟩
  | .hbm, ⟨21, _⟩ => ⟨S1024x1024, .bf16⟩
  | .hbm, ⟨22, _⟩ => ⟨S1024x1024, .f32⟩
  | .hbm, ⟨23, _⟩ => ⟨S1024x1024, .bf16⟩
  | .hbm, ⟨24, _⟩ => ⟨S1024x1024, .f32⟩
  | .hbm, ⟨25, _⟩ => ⟨S1024x1024, .bf16⟩
  | .hbm, ⟨26, _⟩ => ⟨S1024x1024, .f32⟩
  | .hbm, ⟨27, _⟩ => ⟨S1024x1024, .bf16⟩
  | .hbm, ⟨28, _⟩ => ⟨S1024x1024, .f32⟩
  | .hbm, ⟨29, _⟩ => ⟨S1024x1024, .bf16⟩
  | .hbm, ⟨30, _⟩ => ⟨S1024x1024, .f32⟩
  | .hbm, ⟨31, _⟩ => ⟨S1024x1024, .bf16⟩
  | .hbm, ⟨32, _⟩ => ⟨S1024x128, .f32⟩
  | .hbm, ⟨33, _⟩ => ⟨S1024x128, .bf16⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x128, .f32⟩
  | .hbm, ⟨42, _⟩ => ⟨S32768x1024, .f32⟩
  | .hbm, ⟨43, _⟩ => ⟨S32768x128, .f32⟩
  | .local _ .vmem, ⟨0, _⟩ => ⟨S512x512, .f32⟩
  | .local _ .vmem, ⟨1, _⟩ => ⟨S512x512, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S1024x1024, .bf16⟩
  | .local _ .vmem, ⟨13, _⟩ => ⟨S1x1024, .f32⟩
  | .local _ .vmem, ⟨14, _⟩ => ⟨S1024x1024, .bf16⟩
  | .local _ .vmem, ⟨15, _⟩ => ⟨S1x1024, .f32⟩
  | .local _ .vmem, ⟨16, _⟩ => ⟨S1024x1024, .bf16⟩
  | .local _ .vmem, ⟨17, _⟩ => ⟨S1x1024, .f32⟩
  | .local _ .vmem, ⟨18, _⟩ => ⟨S1024x128, .bf16⟩
  | .local _ .vmem, ⟨19, _⟩ => ⟨S1x128, .f32⟩
  | .local _ .vmem, ⟨20, _⟩ => ⟨S512x1024, .f32⟩
  | .local _ .vmem, ⟨21, _⟩ => ⟨S512x1024, .f32⟩
  | .local _ .vmem, ⟨22, _⟩ => ⟨S512x128, .f32⟩
  | .local _ .vmem, ⟨23, _⟩ => ⟨S512x128, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24_0 : Ref sig .tc := ⟨.hbm, 42, rfl⟩
abbrev main_v24_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21
abbrev cc0_sem19_0 : DmaSem sig := 22
abbrev cc0_sem19_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  transposes_S1024x512_S512x1024_1_0 : S1024x512.Transposes [1, 0] S512x1024
  bitsLt_bf16_f32 : FTy.bits .bf16 < FTy.bits .f32
  transposes_S1024x1024_S1024x1024_1_0 : S1024x1024.Transposes [1, 0] S1024x1024
  transposes_S128x1024_S1024x128_1_0 : S128x1024.Transposes [1, 0] S1024x128
  shapeCasts_S1024_S1x1024 : S1024.ShapeCasts S1x1024
  shapeCasts_S128_S1x128 : S128.ShapeCasts S1x128
  inb_S512x512_S512x512_0_0 : ∀ a, (![0, 0] : Fin 2 → Nat) a + S512x512.size a ≤ S512x512.size a
  h_S512x512 : 0 < S512x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  dot_S512x512_S512x1024_S512x1024_1_0_0_1_n_n_wf : DotDims.WF S512x512 S512x1024 S512x1024 [1] [0] [0] [1] [] []
  dot_S512x1024_S1024x1024_S512x1024_1_0_0_1_n_n_wf : DotDims.WF S512x1024 S1024x1024 S512x1024 [1] [0] [0] [1] [] []
  dot_S512x1024_S1024x128_S512x128_1_0_0_1_n_n_wf : DotDims.WF S512x1024 S1024x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S32768x512.size a
  hwx0_0 : ∀ i : grid0.Coords, EltTy.bits .f32 = 32 ∨ (Rect.block (s := S32768x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S32768x1024.size a
  hwx0_1 : ∀ i : grid0.Coords, EltTy.bits .f32 = 32 ∨ (Rect.block (s := S32768x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x1024.size a ≤ S1024x1024.size a
  hwx0_12 : ∀ i : grid0.Coords, EltTy.bits .bf16 = 32 ∨ (Rect.block (s := S1024x1024) S1024x1024.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1024.size a ≤ S1x1024.size a
  hwx0_13 : ∀ i : grid0.Coords, EltTy.bits .f32 = 32 ∨ (Rect.block (s := S1x1024) S1x1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1024x1024.size a ≤ S1024x1024.size a
  hwx0_14 : ∀ i : grid0.Coords, EltTy.bits .bf16 = 32 ∨ (Rect.block (s := S1024x1024) S1024x1024.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1024.size a ≤ S1x1024.size a
  hwx0_15 : ∀ i : grid0.Coords, EltTy.bits .f32 = 32 ∨ (Rect.block (s := S1x1024) S1x1024.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1024x128.size a ≤ S1024x128.size a
  hwx0_16 : ∀ i : grid0.Coords, EltTy.bits .bf16 = 32 ∨ (Rect.block (s := S1024x128) S1024x128.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x128.size a ≤ S1x128.size a
  hwx0_17 : ∀ i : grid0.Coords, EltTy.bits .f32 = 32 ∨ (Rect.block (s := S1x128) S1x128.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S512x1024.size a ≤ S32768x1024.size a
  hwx0_18 : ∀ i : grid0.Coords, EltTy.bits .f32 = 32 ∨ (Rect.block (s := S32768x1024) S512x1024.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S512x128.size a ≤ S32768x128.size a
  hwx0_19 : ∀ i : grid0.Coords, EltTy.bits .f32 = 32 ∨ (Rect.block (s := S32768x128) S512x128.size (cc0_transform_19 i) (hinb0_19 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v20) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S1024x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v21) S1x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v13) S1024x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v22) S1x1024.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v15) S1024x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v23) S1x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v24_0) S512x1024.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v24_1) S512x128.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S32768x512 : Shape := ⟨2, ![32768, 512]⟩
abbrev S32768x1024 : Shape := ⟨2, ![32768, 1024]⟩
abbrev S1024x512 : Shape := ⟨2, ![1024, 512]⟩
abbrev S1024 : Shape := ⟨1, ![1024]⟩
abbrev S1024x1024 : Shape := ⟨2, ![1024, 1024]⟩
abbrev S128x1024 : Shape := ⟨2, ![128, 1024]⟩
abbrev S128 : Shape := ⟨1, ![128]⟩
abbrev S512x1024 : Shape := ⟨2, ![512, 1024]⟩
abbrev S1x1024 : Shape := ⟨2, ![1, 1024]⟩
abbrev S_ : Shape := ⟨0, ![]⟩
abbrev S1024x128 : Shape := ⟨2, ![1024, 128]⟩
abbrev S32768x128 : Shape := ⟨2, ![32768, 128]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x1024, .f32⟩
  | .hbm, ⟨2, _⟩ => ⟨S1024x512, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S1024, .f32⟩
  | .hbm, ⟨16, _⟩ => ⟨S128x1024, .f32⟩
  | .hbm, ⟨17, _⟩ => ⟨S128, .f32⟩
  | .hbm, ⟨18, _⟩ => ⟨S512x1024, .f32⟩
  | .hbm, ⟨19, _⟩ => ⟨S32768x1024, .f32⟩
  | .hbm, ⟨20, _⟩ => ⟨S1x1024, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768x1024, .f32⟩
  | .hbm, ⟨25, _⟩ => ⟨S32768x1024, .f32⟩
  | .hbm, ⟨26, _⟩ => ⟨S1024x1024, .f32⟩
  | .hbm, ⟨27, _⟩ => ⟨S32768x1024, .f32⟩
  | .hbm, ⟨28, _⟩ => ⟨S1x1024, .f32⟩
  | .hbm, ⟨29, _⟩ => ⟨S32768x1024, .f32⟩
  | .hbm, ⟨30, _⟩ => ⟨S32768x1024, .f32⟩
  | .hbm, ⟨31, _⟩ => ⟨S1024x1024, .f32⟩
  | .hbm, ⟨32, _⟩ => ⟨S32768x1024, .f32⟩
  | .hbm, ⟨33, _⟩ => ⟨S32768x1024, .f32⟩
  | .hbm, ⟨34, _⟩ => ⟨S1x1024, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S_, .f32⟩
  | .hbm, ⟨40, _⟩ => ⟨S32768x1024, .f32⟩
  | .hbm, ⟨41, _⟩ => ⟨S32768x1024, .f32⟩
  | .hbm, ⟨42, _⟩ => ⟨S_, .f32⟩
  | .hbm, ⟨43, _⟩ => ⟨S32768x1024, .f32⟩
  | .hbm, ⟨44, _⟩ => ⟨S32768x1024, .f32⟩
  | .hbm, ⟨45, _⟩ => ⟨S1024x1024, .f32⟩
  | .hbm, ⟨46, _⟩ => ⟨S32768x1024, .f32⟩
  | .hbm, ⟨47, _⟩ => ⟨S1x1024, .f32⟩
  | .hbm, ⟨48, _⟩ => ⟨S32768x1024, .f32⟩
  | .hbm, ⟨49, _⟩ => ⟨S32768x1024, .f32⟩
  | .hbm, ⟨50, _⟩ => ⟨S1024x1024, .f32⟩
  | .hbm, ⟨51, _⟩ => ⟨S32768x1024, .f32⟩
  | .hbm, ⟨52, _⟩ => ⟨S32768x1024, .f32⟩
  | .hbm, ⟨53, _⟩ => ⟨S1x1024, .f32⟩
  | .hbm, ⟨54, _⟩ => ⟨S32768x1024, .f32⟩
  | .hbm, ⟨55, _⟩ => ⟨S32768x1024, .f32⟩
  | .hbm, ⟨56, _⟩ => ⟨S32768x1024, .f32⟩
  | .hbm, ⟨57, _⟩ => ⟨S32768x1024, .f32⟩
  | .hbm, ⟨58, _⟩ => ⟨S_, .f32⟩
  | .hbm, ⟨59, _⟩ => ⟨S32768x1024, .f32⟩
  | .hbm, ⟨60, _⟩ => ⟨S32768x1024, .f32⟩
  | .hbm, ⟨61, _⟩ => ⟨S_, .f32⟩
  | .hbm, ⟨62, _⟩ => ⟨S32768x1024, .f32⟩
  | .hbm, ⟨63, _⟩ => ⟨S32768x1024, .f32⟩
  | .hbm, ⟨64, _⟩ => ⟨S1024x1024, .f32⟩
  | .hbm, ⟨65, _⟩ => ⟨S32768x1024, .f32⟩
  | .hbm, ⟨66, _⟩ => ⟨S1x1024, .f32⟩
  | .hbm, ⟨67, _⟩ => ⟨S32768x1024, .f32⟩
  | .hbm, ⟨68, _⟩ => ⟨S32768x1024, .f32⟩
  | .hbm, ⟨69, _⟩ => ⟨S1024x1024, .f32⟩
  | .hbm, ⟨70, _⟩ => ⟨S32768x1024, .f32⟩
  | .hbm, ⟨71, _⟩ => ⟨S1x1024, .f32⟩
  | .hbm, ⟨72, _⟩ => ⟨S32768x1024, .f32⟩
  | .hbm, ⟨73, _⟩ => ⟨S32768x1024, .f32⟩
  | .hbm, ⟨74, _⟩ => ⟨S32768x1024, .f32⟩
  | .hbm, ⟨75, _⟩ => ⟨S32768x1024, .f32⟩
  | .hbm, ⟨76, _⟩ => ⟨S32768x1024, .f32⟩
  | .hbm, ⟨77, _⟩ => ⟨S_, .f32⟩
  | .hbm, ⟨78, _⟩ => ⟨S32768x1024, .f32⟩
  | .hbm, ⟨79, _⟩ => ⟨S32768x1024, .f32⟩
  | .hbm, ⟨80, _⟩ => ⟨S32768x1024, .f32⟩
  | .hbm, ⟨81, _⟩ => ⟨S32768x1024, .f32⟩
  | .hbm, ⟨82, _⟩ => ⟨S32768x1024, .f32⟩
  | .hbm, ⟨83, _⟩ => ⟨S1024x128, .f32⟩
  | .hbm, ⟨84, _⟩ => ⟨S32768x128, .f32⟩
  | .hbm, ⟨85, _⟩ => ⟨S1x128, .f32⟩
  | .hbm, ⟨86, _⟩ => ⟨S32768x128, .f32⟩
  | .hbm, ⟨87, _⟩ => ⟨S32768x128, .f32⟩
  | .hbm, ⟨88, _⟩ => ⟨S32768x128, .f32⟩
  | .hbm, ⟨89, _⟩ => ⟨S_, .f32⟩
  | .hbm, ⟨90, _⟩ => ⟨S32768x128, .f32⟩
  | .hbm, ⟨91, _⟩ => ⟨S32768x128, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_call0_cst : Ref sig .tc := ⟨.hbm, 23, rfl⟩
abbrev main_call0_v0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst : Ref sig .tc := ⟨.hbm, 39, rfl⟩
abbrev main_v19 : Ref sig .tc := ⟨.hbm, 40, rfl⟩
abbrev main_v20 : Ref sig .tc := ⟨.hbm, 41, rfl⟩
abbrev main_cst_0 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_1 : Ref sig .tc := ⟨.hbm, 58, rfl⟩
abbrev main_v36 : Ref sig .tc := ⟨.hbm, 59, rfl⟩
abbrev main_v37 : Ref sig .tc := ⟨.hbm, 60, rfl⟩
abbrev main_cst_2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_3 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_4 : Ref sig .tc := ⟨.hbm, 89, rfl⟩
abbrev main_v64 : Ref sig .tc := ⟨.hbm, 90, rfl⟩
abbrev main_v65 : Ref sig .tc := ⟨.hbm, 91, rfl⟩

abbrev nD : Nat := 1
abbrev τ : Topo := Topo.v7x

variable {F : FTy → Type} [FloatOps F]

class Facts₀ : Prop where
  transposes_S1024x512_S512x1024_1_0 : S1024x512.Transposes [1, 0] S512x1024
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  transposes_S1024x1024_S1024x1024_1_0 : S1024x1024.Transposes [1, 0] S1024x1024
  transposes_S128x1024_S1024x128_1_0 : S128x1024.Transposes [1, 0] S1024x128
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  bcast_S_S32768x128 : S_.BroadcastsInDim S32768x128 (![] : Fin 0 → Fin S32768x128.rank)
  dot_S32768x512_S512x1024_S32768x1024_1_0_0_1_n_n_wf : DotDims.WF S32768x512 S512x1024 S32768x1024 [1] [0] [0] [1] [] []
  dot_S32768x1024_S1024x1024_S32768x1024_1_0_0_1_n_n_wf : DotDims.WF S32768x1024 S1024x1024 S32768x1024 [1] [0] [0] [1] [] []
  dot_S32768x1024_S1024x128_S32768x128_1_0_0_1_n_n_wf : DotDims.WF S32768x1024 S1024x128 S32768x128 [1] [0] [0] [1] [] []

variable [Facts₀]

def dot_S32768x512_S512x1024_S32768x1024_1_0_0_1_n_n : DotDims S32768x512 S512x1024 S32768x1024 where
  lhsContracting := [1]
  rhsContracting := [0]
  lhsNonContracting := [0]
  rhsNonContracting := [1]
  lhsBatch := []
  rhsBatch := []
  wf := dot_S32768x512_S512x1024_S32768x1024_1_0_0_1_n_n_wf
def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf
def dot_S32768x1024_S1024x128_S32768x128_1_0_0_1_n_n : DotDims S32768x1024 S1024x128 S32768x128 where
  lhsContracting := [1]
  rhsContracting := [0]
  lhsNonContracting := [0]
  rhsNonContracting := [1]
  lhsBatch := []
  rhsBatch := []
  wf := dot_S32768x1024_S1024x128_S32768x128_1_0_0_1_n_n_wf

class Facts : Prop extends Facts₀ where

variable [Facts]
-- ==== Proof.LibDenseDefs.lean ====
import Idealize.ShloMosaic.PureOps.Ideal
import Idealize.ShloMosaic.Lib.ValueIdx

/-!
# Dense layers on rows of extended reals: the definitions

A dense layer sends the rows of an `M × K` array `x` to `x · w + b`: entry `(r, q)` is `∑ k, x[r, k] · w[k, q] + b[q]`
(`lin`). `relu x = max x 0`; `cat` joins two arrays along the columns. All at an arbitrary number of rows.
-/

noncomputable section

namespace Cert.LibDense

open Idealize.ShloMosaic Idealize.ShloMosaic.ValueIdx

/-- An `m × n` array of extended reals. -/
abbrev Mat (m n : Nat) := (⟨2, ![m, n]⟩ : Shape).Idx → EReal
/-- A vector of `n` extended reals. -/
abbrev Row (n : Nat) := (⟨1, ![n]⟩ : Shape).Idx → EReal

/-- `max x 0`. -/
def relu (x : EReal) : EReal := max x 0

/-- `relu` entry by entry, over any index type. -/
def reluM {ι : Type} (x : ι → EReal) : ι → EReal := fun i => relu (x i)

/-- The dense layer `x · w + b`: entry `(r, q)` is `∑ k, x[r, k] · w[k, q] + b[q]`. -/
def lin {M K N : Nat} (x : Mat M K) (w : Mat K N) (b : Row N) : Mat M N :=
  fun i => (∑ k : Fin K, x (ix2 (i 0) k) * w (ix2 k (i 1))) + b (ix1 (i 1))

/-- Two arrays side by side: columns `0 … A-1` are `s`'s, columns `A … A+B-1` are `d`'s. -/
def cat {M A B : Nat} (s : Mat M A) (d : Mat M B) : Mat M (A + B) :=
  fun i => if h : (i 1).val < A then s (ix2 (i 0) ⟨(i 1).val, h⟩)
    else d (ix2 (i 0) ⟨(i 1).val - A, by have := (i 1).isLt; change (i 1).val < A + B at this; omega⟩)

theorem lin_apply {M K N : Nat} (x : Mat M K) (w : Mat K N) (b : Row N) (r : Fin M) (q : Fin N) :
    lin x w b (ix2 r q) = (∑ k : Fin K, x (ix2 r k) * w (ix2 k q)) + b (ix1 q) := rfl

end Cert.LibDense

end
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.LibDenseRows.lean ====
import proofs.«115798_j61040075211058_1_alg».proof.Proof.LibDenseDefs
import proofs.«115798_j61040075211058_1_alg».proof.Proof.LibContract
import Idealize.ShloMosaic.Lib.ValueLayout
import Idealize.ShloMosaic.Lib.Pipeline.Value
import Idealize.ShloMosaic.Lib.StableHlo.Predicate

/-!
# A dense layer on ONE row, its weight stored output-major, in a kernel's spelling and in the host's

`dense x W b q = ∑ k, x[k] · W[q, k] + b[q]` is a dense layer applied to one row `x`, with the weight as a linear layer
stores it (`W[q, k]`: output `q`, input `k`). A program that applies the layer to every row of a batch reads, at entry
`(p, q)` of the result, `dense` of row `p` of its operand:

* a kernel computes `matmul(a, w, 0) + broadcast(bias)` on a block of rows, where the weight block `w` is the matrix
  transposed (`w[k, q] = W[q, k]`, transposed before the launch) and the bias block is the vector as one row
  (`bias[0, q] = b[q]`), each shape-cast to its own shape first (`layer_apply`; the product alone: `prod_apply`; the bias
  alone: `bias_apply`);
* the host computes `dot_general(a, transpose W)` (`hostProd_apply`), and broadcasts a scalar constant (`hostSplat_apply`).

The left operand is given by its row: any `xr` with `a[p, k] = xr k`, so a layer stacked on an earlier value takes that value's
own entry lemma. Beside them the entry-by-entry readings of the pointwise functions that have none in the library.
All on the extended reals.
-/

noncomputable section

namespace Cert.LibDense

open Idealize.ShloMosaic Idealize.ShloMosaic.ValueIdx

/-- A dense layer on one row, the weight output-major: `y[q] = ∑ k, x[k] · W[q, k] + b[q]`. -/
def dense {K N : Nat} (x : Fin K → EReal) (W : Mat N K) (b : Row N) (q : Fin N) : EReal :=
  (∑ k : Fin K, x k * W (ix2 q k)) + b (ix1 q)

/-- Row `r` of an array. -/
def row {M N : Nat} (x : Mat M N) (r : Fin M) : Fin N → EReal := fun k => x (ix2 r k)

/-! ## A kernel's spelling -/

/-- The body's `matmul(a, w, 0) + broadcast(bias)` at entry `(p, q)`, the weight block read transposed and the bias block as a
    one-row matrix: the dense layer on row `p` of `a`. -/
theorem layer_apply {M K N : Nat} {φ₁ φ₂ : FTy} (prec : Option ContractPrecision)
    (hw : (⟨2, ![K, N]⟩ : Shape).ShapeCasts ⟨2, ![K, N]⟩) (hc : (⟨2, ![1, N]⟩ : Shape).ShapeCasts ⟨2, ![1, N]⟩)
    (hb : (⟨2, ![1, N]⟩ : Shape).Broadcasts ⟨2, ![M, N]⟩)
    (a : FVec Ideal (⟨2, ![M, K]⟩ : Shape) φ₁) (w : FVec Ideal (⟨2, ![K, N]⟩ : Shape) φ₂)
    (bias : FVec Ideal (⟨2, ![1, N]⟩ : Shape) .f32)
    (W : Mat N K) (b : Row N) (xr : Fin K → EReal) (p : Fin M) (q : Fin N)
    (hx : ∀ k, a (ix2 p k) = xr k) (hW : ∀ k, w (ix2 k q) = W (ix2 q k)) (hB : bias (ix2 (0 : Fin 1) q) = b (ix1 q)) :
    addf (matmul (DotDims.plain M K N) prec a (shapeCast ⟨2, ![K, N]⟩ w hw)
          (constant (F := Ideal) (⟨2, ![M, N]⟩ : Shape) .f32 0x00000000#32))
        (broadcastTo ⟨2, ![M, N]⟩ (shapeCast ⟨2, ![1, N]⟩ bias hc) hb) (ix2 p q) = dense xr W b q := by
  rw [shapeCast_self, shapeCast_self]
  refine (addf_apply _ _ _).trans ?_
  rw [matmul_plain_zero_apply, broadcastTo_1b_ab_apply, hB]
  unfold dense
  congr 1
  exact Finset.sum_congr rfl fun k _ => by rw [hx k, hW k]

/-- The same product without its bias. -/
theorem prod_apply {M K N : Nat} {φ₁ φ₂ : FTy} (prec : Option ContractPrecision)
    (hw : (⟨2, ![K, N]⟩ : Shape).ShapeCasts ⟨2, ![K, N]⟩)
    (a : FVec Ideal (⟨2, ![M, K]⟩ : Shape) φ₁) (w : FVec Ideal (⟨2, ![K, N]⟩ : Shape) φ₂)
    (W : Mat N K) (xr : Fin K → EReal) (p : Fin M) (q : Fin N)
    (hx : ∀ k, a (ix2 p k) = xr k) (hW : ∀ k, w (ix2 k q) = W (ix2 q k)) :
    matmul (DotDims.plain M K N) prec a (shapeCast ⟨2, ![K, N]⟩ w hw)
          (constant (F := Ideal) (⟨2, ![M, N]⟩ : Shape) .f32 0x00000000#32) (ix2 p q)
      = ∑ k : Fin K, xr k * W (ix2 q k) := by
  rw [shapeCast_self, matmul_plain_zero_apply]
  exact Finset.sum_congr rfl fun k _ => by rw [hx k, hW k]

/-- A one-row bias block, shape-cast to itself and broadcast over the rows, read at `(p, q)`. -/
theorem bias_apply {M N : Nat} (hc : (⟨2, ![1, N]⟩ : Shape).ShapeCasts ⟨2, ![1, N]⟩)
    (hb : (⟨2, ![1, N]⟩ : Shape).Broadcasts ⟨2, ![M, N]⟩) (bias : FVec Ideal (⟨2, ![1, N]⟩ : Shape) .f32) (b : Row N)
    (p : Fin M) (q : Fin N) (hB : bias (ix2 (0 : Fin 1) q) = b (ix1 q)) :
    broadcastTo ⟨2, ![M, N]⟩ (shapeCast ⟨2, ![1, N]⟩ bias hc) hb (ix2 p q) = b (ix1 q) := by
  rw [shapeCast_self, broadcastTo_1b_ab_apply, hB]

/-- The logistic function of a vector, entry by entry. -/
theorem logistic_apply {s : Shape} {φ : FTy} (a : FVec Ideal s φ) (i : s.Idx) : logistic a i = Ideal.logistic (a i) := rfl

/-- The hyperbolic tangent of a vector, entry by entry. -/
theorem tanh_apply {s : Shape} {φ : FTy} (a : FVec Ideal s φ) (i : s.Idx) : tanh a i = Ideal.tanh (a i) := rfl

/-! ## The host's spelling -/

/-- A `dot_general` against a transposed weight, at entry `(r, q)`: row `r` of the left operand against row `q` of the weight. -/
theorem hostProd_apply {M K N : Nat} (prec : Option ContractPrecision)
    (ht : (⟨2, ![N, K]⟩ : Shape).Transposes [1, 0] ⟨2, ![K, N]⟩)
    (a : FVec Ideal (⟨2, ![M, K]⟩ : Shape) .f32) (W : FVec Ideal (⟨2, ![N, K]⟩ : Shape) .f32) (xr : Fin K → EReal)
    (r : Fin M) (q : Fin N) (hx : ∀ k, a (ix2 r k) = xr k) :
    Host.dotGeneral (DotDims.plain M K N) prec a (transpose ⟨2, ![K, N]⟩ [1, 0] W ht) (ix2 r q)
      = ∑ k : Fin K, xr k * W (ix2 q k) := by
  rw [dotGeneral_plain_apply]
  exact Finset.sum_congr rfl fun k _ => by rw [hx k, transpose_ix2_apply]

/-- A scalar constant broadcast to any shape reads its word everywhere. -/
theorem hostSplat_apply {s : Shape} (h : (⟨0, ![]⟩ : Shape).BroadcastsInDim s ![]) (w : BitVec 32) (i : s.Idx) :
    broadcastInDim s ![] h (constant (F := Ideal) (⟨0, ![]⟩ : Shape) .f32 w) i = Ideal.ofBits .f32 w := by
  rw [StableHlo.Predicate.bcast_scalar h (by decide) _ i, constant_apply]

/-- The host's negation, exponential and hyperbolic tangent of vectors, entry by entry (the quotient is the library's
    `ValueIdx.hostDivf_apply`, Lib/IdealHost.lean). -/
theorem hostNegf_apply {s : Shape} {φ : FTy} (a : FVec Ideal s φ) (i : s.Idx) : Host.negf a i = -(a i) := rfl
theorem hostExp_apply {s : Shape} {φ : FTy} (a : FVec Ideal s φ) (i : s.Idx) : Host.exp a i = Ideal.exp (a i) := rfl
theorem hostTanh_apply {s : Shape} {φ : FTy} (a : FVec Ideal s φ) (i : s.Idx) : Host.tanh a i = Ideal.tanh (a i) := rfl

end Cert.LibDense

end
-- ==== Proof.GruSpec.lean ====
import proofs.«115798_j61040075211058_1_alg».proof.Proof.LibDenseRows

/-!
# One step of a gated recurrent cell between two dense layers, one batch row at a time

A batch row carries an observation `i` (512 numbers) and a hidden state `h` (1024 numbers). The step is

* features `x = relu (W1 · i + b1)`;
* reset gate `r = σ ((Wxr · x + bxr) + (Whr · h + bhr))`, update gate `z` the same with its own weights;
* candidate `n = tanh ((Wxn · x + bxn) + r ∗ (Whn · h + bhn))`;
* new hidden state `h' = (1 - z) ∗ n + z ∗ h`;
* action values `q = 10 ∗ tanh (W2 · h' + b2)`,

with `σ t = 1 / (1 + e^(-t))` and `W · x + b` the dense layer `dense` of Proof/LibDenseRows.lean (every weight matrix stored
output-major, `W[q, k]`). Every row of the batch is treated alike: entry `(r, q)` of a result array is a function of rows `r` of the two input arrays.
All on the extended reals.
-/

noncomputable section

namespace Cert.Gru

open Idealize.ShloMosaic Idealize.ShloMosaic.ValueIdx Cert.LibDense

/-- The cell's weights. -/
structure Params where
  W1 : Mat 1024 512
  b1 : Row 1024
  Wxr : Mat 1024 1024
  bxr : Row 1024
  Whr : Mat 1024 1024
  bhr : Row 1024
  Wxz : Mat 1024 1024
  bxz : Row 1024
  Whz : Mat 1024 1024
  bhz : Row 1024
  Wxn : Mat 1024 1024
  bxn : Row 1024
  Whn : Mat 1024 1024
  bhn : Row 1024
  W2 : Mat 128 1024
  b2 : Row 128

/-- The float word of ten. -/
abbrev ten : EReal := Ideal.ofBits .f32 0x41200000#32

/-- The features of an observation. -/
def feat (P : Params) (i : Fin 512 → EReal) : Fin 1024 → EReal := fun q => relu (dense i P.W1 P.b1 q)

/-- The reset gate. -/
def gateR (P : Params) (x h : Fin 1024 → EReal) (q : Fin 1024) : EReal :=
  Ideal.logistic (dense x P.Wxr P.bxr q + dense h P.Whr P.bhr q)

/-- The update gate. -/
def gateZ (P : Params) (x h : Fin 1024 → EReal) (q : Fin 1024) : EReal :=
  Ideal.logistic (dense x P.Wxz P.bxz q + dense h P.Whz P.bhz q)

/-- The candidate state. -/
def cand (P : Params) (x h : Fin 1024 → EReal) (q : Fin 1024) : EReal :=
  Ideal.tanh (dense x P.Wxn P.bxn q + gateR P x h q * dense h P.Whn P.bhn q)

/-- The new hidden state of one row. -/
def hNew (P : Params) (i : Fin 512 → EReal) (h : Fin 1024 → EReal) : Fin 1024 → EReal := fun q =>
  (1 - gateZ P (feat P i) h q) * cand P (feat P i) h q + gateZ P (feat P i) h q * h q

/-- The action values of one row. -/
def qVal (P : Params) (i : Fin 512 → EReal) (h : Fin 1024 → EReal) : Fin 128 → EReal := fun a =>
  ten * Ideal.tanh (dense (hNew P i h) P.W2 P.b2 a)

/-- The new hidden states of a batch of `M` rows. -/
def hArr {M : Nat} (P : Params) (inp : Mat M 512) (hid : Mat M 1024) : Mat M 1024 :=
  fun i => hNew P (row inp (i 0)) (row hid (i 0)) (i 1)

/-- The action values of a batch of `M` rows. -/
def qArr {M : Nat} (P : Params) (inp : Mat M 512) (hid : Mat M 1024) : Mat M 128 :=
  fun i => qVal P (row inp (i 0)) (row hid (i 0)) (i 1)

theorem hArr_apply {M : Nat} (P : Params) (inp : Mat M 512) (hid : Mat M 1024) (r : Fin M) (q : Fin 1024) :
    hArr P inp hid (ix2 r q) = hNew P (row inp r) (row hid r) q := rfl

theorem qArr_apply {M : Nat} (P : Params) (inp : Mat M 512) (hid : Mat M 1024) (r : Fin M) (a : Fin 128) :
    qArr P inp hid (ix2 r a) = qVal P (row inp r) (row hid r) a := rfl

end Cert.Gru

end
-- ==== Proof.GruKernel.lean ====
import proofs.«115798_j61040075211058_1_alg».proof.Proof.GruSpec
import proofs.«115798_j61040075211058_1_alg».proof.Proof.Gen.KernelIdeal.Skeleton
import Idealize.ShloMosaic.Lib.ValueLayout
import Idealize.ShloMosaic.Lib.Pipeline.Value
import Idealize.ShloMosaic.Lib.IdealHost

/-!
# The kernel body's two stored values, entry by entry

The body works on a block of 512 batch rows. Its weight operands arrive transposed (input-major, `w[k, q] = W[q, k]`) and its
bias operands as one-row matrices (`bias[0, q] = b[q]`). Under those two readings each product-plus-bias of the body is the
dense layer of the specification on the row at hand (Proof/LibDenseRows.lean), and the two stores hold the row's new hidden state
and action values.
On the extended reals a change of float format is the identity, so the narrowing of the operands before each product
disappears.
-/

noncomputable section

namespace Cert.Gru.Kern

open Idealize.ShloMosaic Idealize.ShloMosaic.ValueIdx Idealize.ShloMosaic.TcCoe Cert.LibDense Cert.Gru
open Cert.KernelIdeal Cert.KernelIdeal.Gen

/-! ## The printed contraction records are the plain contraction -/

theorem dot_in : dot_S512x512_S512x1024_S512x1024_1_0_0_1_n_n = DotDims.plain 512 512 1024 := rfl
theorem dot_hid : dot_S512x1024_S1024x1024_S512x1024_1_0_0_1_n_n = DotDims.plain 512 1024 1024 := rfl
theorem dot_out : dot_S512x1024_S1024x128_S512x128_1_0_0_1_n_n = DotDims.plain 512 1024 128 := rfl

/-! ## How the body's operand blocks are read -/

/-- The blocks a grid point hands the body, beside the two batch blocks: each weight block is its matrix transposed, each bias
    block its vector as one row. -/
structure Reads (P : Params)
    (x2 : Vec Ideal S512x1024 .bf16) (x3 : Vec Ideal S1x1024 .f32) (x4 : Vec Ideal S1024x1024 .bf16) (x5 : Vec Ideal S1x1024 .f32)
    (x6 : Vec Ideal S1024x1024 .bf16) (x7 : Vec Ideal S1x1024 .f32) (x8 : Vec Ideal S1024x1024 .bf16) (x9 : Vec Ideal S1x1024 .f32)
    (x10 : Vec Ideal S1024x1024 .bf16) (x11 : Vec Ideal S1x1024 .f32) (x12 : Vec Ideal S1024x1024 .bf16) (x13 : Vec Ideal S1x1024 .f32)
    (x14 : Vec Ideal S1024x1024 .bf16) (x15 : Vec Ideal S1x1024 .f32) (x16 : Vec Ideal S1024x128 .bf16) (x17 : Vec Ideal S1x128 .f32) : Prop where
  w1 : ∀ (k : Fin 512) (q : Fin 1024), x2 (ix2 k q) = P.W1 (ix2 q k)
  b1 : ∀ q : Fin 1024, x3 (ix2 (0 : Fin 1) q) = P.b1 (ix1 q)
  wxr : ∀ (k q : Fin 1024), x4 (ix2 k q) = P.Wxr (ix2 q k)
  bxr : ∀ q : Fin 1024, x5 (ix2 (0 : Fin 1) q) = P.bxr (ix1 q)
  whr : ∀ (k q : Fin 1024), x6 (ix2 k q) = P.Whr (ix2 q k)
  bhr : ∀ q : Fin 1024, x7 (ix2 (0 : Fin 1) q) = P.bhr (ix1 q)
  wxz : ∀ (k q : Fin 1024), x8 (ix2 k q) = P.Wxz (ix2 q k)
  bxz : ∀ q : Fin 1024, x9 (ix2 (0 : Fin 1) q) = P.bxz (ix1 q)
  whz : ∀ (k q : Fin 1024), x10 (ix2 k q) = P.Whz (ix2 q k)
  bhz : ∀ q : Fin 1024, x11 (ix2 (0 : Fin 1) q) = P.bhz (ix1 q)
  wxn : ∀ (k q : Fin 1024), x12 (ix2 k q) = P.Wxn (ix2 q k)
  bxn : ∀ q : Fin 1024, x13 (ix2 (0 : Fin 1) q) = P.bxn (ix1 q)
  whn : ∀ (k q : Fin 1024), x14 (ix2 k q) = P.Whn (ix2 q k)
  bhn : ∀ q : Fin 1024, x15 (ix2 (0 : Fin 1) q) = P.bhn (ix1 q)
  w2 : ∀ (k : Fin 1024) (a : Fin 128), x16 (ix2 k a) = P.W2 (ix2 a k)
  b2 : ∀ a : Fin 128, x17 (ix2 (0 : Fin 1) a) = P.b2 (ix1 a)

section

variable {P : Params}
  {x2 : Vec Ideal S512x1024 .bf16} {x3 : Vec Ideal S1x1024 .f32} {x4 : Vec Ideal S1024x1024 .bf16} {x5 : Vec Ideal S1x1024 .f32}
  {x6 : Vec Ideal S1024x1024 .bf16} {x7 : Vec Ideal S1x1024 .f32} {x8 : Vec Ideal S1024x1024 .bf16} {x9 : Vec Ideal S1x1024 .f32}
  {x10 : Vec Ideal S1024x1024 .bf16} {x11 : Vec Ideal S1x1024 .f32} {x12 : Vec Ideal S1024x1024 .bf16} {x13 : Vec Ideal S1x1024 .f32}
  {x14 : Vec Ideal S1024x1024 .bf16} {x15 : Vec Ideal S1x1024 .f32} {x16 : Vec Ideal S1024x128 .bf16} {x17 : Vec Ideal S1x128 .f32}
  (R : Reads P x2 x3 x4 x5 x6 x7 x8 x9 x10 x11 x12 x13 x14 x15 x16 x17)
  (x0 : Vec Ideal S512x512 .f32) (x1 : Vec Ideal S512x1024 .f32)

include R

/-- The narrowed features of row `p`. -/
theorem feat_apply (p : Fin 512) (k : Fin 1024) : k0_pay3 x0 x2 x3 (ix2 p k) = feat P (row x0 p) k := by
  unfold k0_pay3
  rw [dot_in]
  simp only [truncf_apply, maximumf_apply, broadcast_apply]
  rw [layer_apply none _ _ _ (truncf .bf16 x0 bitsLt_bf16_f32) x2 x3 P.W1 P.b1 (row x0 p) p k (fun _ => rfl) (fun k' => R.w1 k' k) (R.b1 k),
    Ideal.ofBits_def, Ideal.ofBits_zero_f32]
  rfl

/-- The reset gate of row `p`. -/
theorem gateR_apply (p : Fin 512) (q : Fin 1024) :
    k0_pay4 x0 x1 x2 x3 x4 x5 x6 x7 (ix2 p q) = gateR P (feat P (row x0 p)) (row x1 p) q := by
  unfold k0_pay4
  rw [dot_hid]
  simp only [addf_apply, logistic_apply]
  rw [prod_apply none _ (k0_pay3 x0 x2 x3) x4 P.Wxr (feat P (row x0 p)) p q (fun k => feat_apply R x0 p k) (fun k => R.wxr k q),
    prod_apply none _ (k0_pay2 x1) x6 P.Whr (row x1 p) p q (fun _ => rfl) (fun k => R.whr k q),
    bias_apply _ _ x5 P.bxr p q (R.bxr q), bias_apply _ _ x7 P.bhr p q (R.bhr q)]
  rfl

/-- The new hidden state of row `p`: the value the body stores into the hidden-state output block. -/
theorem hNew_apply (p : Fin 512) (q : Fin 1024) :
    k0_pay6 x1 (k0_pay2 x1) (k0_pay3 x0 x2 x3) (k0_pay4 x0 x1 x2 x3 x4 x5 x6 x7) (k0_pay5 x0 x2 x3 x8) x9 x10 x11 x14 x15 x12 x13 (ix2 p q)
      = hNew P (row x0 p) (row x1 p) q := by
  unfold k0_pay6 k0_pay5
  rw [dot_hid]
  simp only [addf_apply, mulf_apply, subf_apply, tanh_apply, logistic_apply, broadcast_apply]
  rw [gateR_apply R x0 x1 p q,
    prod_apply none _ (k0_pay3 x0 x2 x3) x8 P.Wxz (feat P (row x0 p)) p q (fun k => feat_apply R x0 p k) (fun k => R.wxz k q),
    prod_apply none _ (k0_pay2 x1) x10 P.Whz (row x1 p) p q (fun _ => rfl) (fun k => R.whz k q),
    prod_apply none _ (k0_pay2 x1) x14 P.Whn (row x1 p) p q (fun _ => rfl) (fun k => R.whn k q),
    prod_apply none _ (k0_pay3 x0 x2 x3) x12 P.Wxn (feat P (row x0 p)) p q (fun k => feat_apply R x0 p k) (fun k => R.wxn k q),
    bias_apply _ _ x9 P.bxz p q (R.bxz q), bias_apply _ _ x11 P.bhz p q (R.bhz q),
    bias_apply _ _ x15 P.bhn p q (R.bhn q), bias_apply _ _ x13 P.bxn p q (R.bxn q),
    Ideal.ofBits_def, Ideal.ofBits_one_f32]
  rfl

/-- The action values of row `p`: the value the body stores into the action-value output block. -/
theorem qVal_apply (p : Fin 512) (a : Fin 128) :
    k0_pay1 (k0_pay7 x1 (k0_pay2 x1) (k0_pay3 x0 x2 x3) (k0_pay4 x0 x1 x2 x3 x4 x5 x6 x7) (k0_pay5 x0 x2 x3 x8) x9 x10 x11 x14 x15 x12 x13)
        (k0_pay8 x16) (constant S512x128 .f32 0x00000000#32) x17 (ix2 p a)
      = qVal P (row x0 p) (row x1 p) a := by
  unfold k0_pay1 k0_pay8
  rw [dot_out]
  simp only [addf_apply, mulf_apply, tanh_apply, broadcast_apply]
  rw [prod_apply none _ (k0_pay7 x1 (k0_pay2 x1) (k0_pay3 x0 x2 x3) (k0_pay4 x0 x1 x2 x3 x4 x5 x6 x7) (k0_pay5 x0 x2 x3 x8) x9 x10 x11 x14 x15 x12 x13)
      x16 P.W2 (hNew P (row x0 p) (row x1 p)) p a (fun k => hNew_apply R x0 x1 p k) (fun k => R.w2 k a),
    bias_apply _ _ x17 P.b2 p a (R.b2 a), Ideal.ofBits_def]
  rfl

end

end Cert.Gru.Kern

end
-- ==== Proof.GruBlocks.lean ====
import proofs.«115798_j61040075211058_1_alg».proof.Proof.GruKernel
import proofs.«115798_j61040075211058_1_alg».proof.Proof.Gen.KernelIdeal.Value
import Idealize.ShloMosaic.Lib.Pipeline.Value
import Idealize.ShloMosaic.Lib.ValueLayout
import Idealize.ShloMosaic.Lib.StableHlo.Run
import Idealize.ShloMosaic.Lib.Tactic

/-!
# From the row blocks to the two result arrays

The grid has 64 points. Point `t` is handed rows `512 t … 512 t + 511` of the observations and of the hidden states, and the
whole of every weight operand: a weight matrix transposed and narrowed before the launch, a bias vector laid as one row.
So the blocks the body sees are read as the kernel-side lemmas ask, the block it writes back at `t` holds the specification's
new hidden states (action values) of those 512 rows, and the 64 blocks tile the result arrays.
-/

noncomputable section

namespace Cert.Gru.Blocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value Cert.LibDense Cert.Gru

variable (m : (ℓ : Loc nD τ sig) → Buf (Elt Ideal) ℓ) (ρ : Dev nD → PrngReg)

/-! ## The operand arrays the launch finds: each weight transposed, each bias as one row -/

theorem V_w1 (c : Dev nD) : @Eq (FVec Ideal S512x1024 .bf16) (V m c main_v1)
    (truncf .bf16 (transpose S512x1024 [1, 0] (m ((c : Thread nD τ).loc main_arg2)) transposes_S1024x512_S512x1024_1_0) bitsLt_bf16_f32) := by
  dsimp only [Gen.V, Gen.hostOps0]
  after_results

theorem V_wxr (c : Dev nD) : @Eq (FVec Ideal S1024x1024 .bf16) (V m c main_v3)
    (truncf .bf16 (transpose S1024x1024 [1, 0] (m ((c : Thread nD τ).loc main_arg4)) transposes_S1024x1024_S1024x1024_1_0) bitsLt_bf16_f32) := by
  dsimp only [Gen.V, Gen.hostOps0]
  after_results

theorem V_whr (c : Dev nD) : @Eq (FVec Ideal S1024x1024 .bf16) (V m c main_v5)
    (truncf .bf16 (transpose S1024x1024 [1, 0] (m ((c : Thread nD τ).loc main_arg6)) transposes_S1024x1024_S1024x1024_1_0) bitsLt_bf16_f32) := by
  dsimp only [Gen.V, Gen.hostOps0]
  after_results

theorem V_wxz (c : Dev nD) : @Eq (FVec Ideal S1024x1024 .bf16) (V m c main_v7)
    (truncf .bf16 (transpose S1024x1024 [1, 0] (m ((c : Thread nD τ).loc main_arg8)) transposes_S1024x1024_S1024x1024_1_0) bitsLt_bf16_f32) := by
  dsimp only [Gen.V, Gen.hostOps0]
  after_results

theorem V_whz (c : Dev nD) : @Eq (FVec Ideal S1024x1024 .bf16) (V m c main_v9)
    (truncf .bf16 (transpose S1024x1024 [1, 0] (m ((c : Thread nD τ).loc main_arg10)) transposes_S1024x1024_S1024x1024_1_0) bitsLt_bf16_f32) := by
  dsimp only [Gen.V, Gen.hostOps0]
  after_results

theorem V_wxn (c : Dev nD) : @Eq (FVec Ideal S1024x1024 .bf16) (V m c main_v11)
    (truncf .bf16 (transpose S1024x1024 [1, 0] (m ((c : Thread nD τ).loc main_arg12)) transposes_S1024x1024_S1024x1024_1_0) bitsLt_bf16_f32) := by
  dsimp only [Gen.V, Gen.hostOps0]
  after_results

theorem V_whn (c : Dev nD) : @Eq (FVec Ideal S1024x1024 .bf16) (V m c main_v13)
    (truncf .bf16 (transpose S1024x1024 [1, 0] (m ((c : Thread nD τ).loc main_arg14)) transposes_S1024x1024_S1024x1024_1_0) bitsLt_bf16_f32) := by
  dsimp only [Gen.V, Gen.hostOps0]
  after_results

theorem V_w2 (c : Dev nD) : @Eq (FVec Ideal S1024x128 .bf16) (V m c main_v15)
    (truncf .bf16 (transpose S1024x128 [1, 0] (m ((c : Thread nD τ).loc main_arg16)) transposes_S128x1024_S1024x128_1_0) bitsLt_bf16_f32) := by
  dsimp only [Gen.V, Gen.hostOps0]
  after_results

theorem V_b1 (c : Dev nD) : @Eq (FVec Ideal S1x1024 .f32) (V m c main_v16)
    (shapeCast S1x1024 (m ((c : Thread nD τ).loc main_arg3)) shapeCasts_S1024_S1x1024) := by
  dsimp only [Gen.V, Gen.hostOps0]
  after_results
  rfl

theorem V_bxr (c : Dev nD) : @Eq (FVec Ideal S1x1024 .f32) (V m c main_v17)
    (shapeCast S1x1024 (m ((c : Thread nD τ).loc main_arg5)) shapeCasts_S1024_S1x1024) := by
  dsimp only [Gen.V, Gen.hostOps0]
  after_results
  rfl

theorem V_bhr (c : Dev nD) : @Eq (FVec Ideal S1x1024 .f32) (V m c main_v18)
    (shapeCast S1x1024 (m ((c : Thread nD τ).loc main_arg7)) shapeCasts_S1024_S1x1024) := by
  dsimp only [Gen.V, Gen.hostOps0]
  after_results
  rfl

theorem V_bxz (c : Dev nD) : @Eq (FVec Ideal S1x1024 .f32) (V m c main_v19)
    (shapeCast S1x1024 (m ((c : Thread nD τ).loc main_arg9)) shapeCasts_S1024_S1x1024) := by
  dsimp only [Gen.V, Gen.hostOps0]
  after_results
  rfl

theorem V_bhz (c : Dev nD) : @Eq (FVec Ideal S1x1024 .f32) (V m c main_v20)
    (shapeCast S1x1024 (m ((c : Thread nD τ).loc main_arg11)) shapeCasts_S1024_S1x1024) := by
  dsimp only [Gen.V, Gen.hostOps0]
  after_results
  rfl

theorem V_bxn (c : Dev nD) : @Eq (FVec Ideal S1x1024 .f32) (V m c main_v21)
    (shapeCast S1x1024 (m ((c : Thread nD τ).loc main_arg13)) shapeCasts_S1024_S1x1024) := by
  dsimp only [Gen.V, Gen.hostOps0]
  after_results
  rfl

theorem V_bhn (c : Dev nD) : @Eq (FVec Ideal S1x1024 .f32) (V m c main_v22)
    (shapeCast S1x1024 (m ((c : Thread nD τ).loc main_arg15)) shapeCasts_S1024_S1x1024) := by
  dsimp only [Gen.V, Gen.hostOps0]
  after_results
  rfl

theorem V_b2 (c : Dev nD) : @Eq (FVec Ideal S1x128 .f32) (V m c main_v23)
    (shapeCast S1x128 (m ((c : Thread nD τ).loc main_arg17)) shapeCasts_S128_S1x128) := by
  dsimp only [Gen.V, Gen.hostOps0]
  after_results
  rfl

/-! ## The index maps over the grid -/

/-- The two batch windows and the two result windows walk the row blocks. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_18.index t (0 : Fin 2) = t.val ∧ win0_18.index t (1 : Fin 2) = 0
    ∧ win0_19.index t (0 : Fin 2) = t.val ∧ win0_19.index t (1 : Fin 2) = 0 :=
  (by decide +kernel : ∀ t : Fin grid0.N, _)

/-- Every weight window stays at block `(0, 0)`: its block is its whole array. -/
theorem idx0_2 : ∀ (t : Fin cfg0.N) (a : Fin 2), win0_2.index t a = 0 := (by decide +kernel : ∀ (t : Fin grid0.N) (a : Fin 2), _)
theorem idx0_3 : ∀ (t : Fin cfg0.N) (a : Fin 2), win0_3.index t a = 0 := (by decide +kernel : ∀ (t : Fin grid0.N) (a : Fin 2), _)
theorem idx0_4 : ∀ (t : Fin cfg0.N) (a : Fin 2), win0_4.index t a = 0 := (by decide +kernel : ∀ (t : Fin grid0.N) (a : Fin 2), _)
theorem idx0_5 : ∀ (t : Fin cfg0.N) (a : Fin 2), win0_5.index t a = 0 := (by decide +kernel : ∀ (t : Fin grid0.N) (a : Fin 2), _)
theorem idx0_6 : ∀ (t : Fin cfg0.N) (a : Fin 2), win0_6.index t a = 0 := (by decide +kernel : ∀ (t : Fin grid0.N) (a : Fin 2), _)
theorem idx0_7 : ∀ (t : Fin cfg0.N) (a : Fin 2), win0_7.index t a = 0 := (by decide +kernel : ∀ (t : Fin grid0.N) (a : Fin 2), _)
theorem idx0_8 : ∀ (t : Fin cfg0.N) (a : Fin 2), win0_8.index t a = 0 := (by decide +kernel : ∀ (t : Fin grid0.N) (a : Fin 2), _)
theorem idx0_9 : ∀ (t : Fin cfg0.N) (a : Fin 2), win0_9.index t a = 0 := (by decide +kernel : ∀ (t : Fin grid0.N) (a : Fin 2), _)
theorem idx0_10 : ∀ (t : Fin cfg0.N) (a : Fin 2), win0_10.index t a = 0 := (by decide +kernel : ∀ (t : Fin grid0.N) (a : Fin 2), _)
theorem idx0_11 : ∀ (t : Fin cfg0.N) (a : Fin 2), win0_11.index t a = 0 := (by decide +kernel : ∀ (t : Fin grid0.N) (a : Fin 2), _)
theorem idx0_12 : ∀ (t : Fin cfg0.N) (a : Fin 2), win0_12.index t a = 0 := (by decide +kernel : ∀ (t : Fin grid0.N) (a : Fin 2), _)
theorem idx0_13 : ∀ (t : Fin cfg0.N) (a : Fin 2), win0_13.index t a = 0 := (by decide +kernel : ∀ (t : Fin grid0.N) (a : Fin 2), _)
theorem idx0_14 : ∀ (t : Fin cfg0.N) (a : Fin 2), win0_14.index t a = 0 := (by decide +kernel : ∀ (t : Fin grid0.N) (a : Fin 2), _)
theorem idx0_15 : ∀ (t : Fin cfg0.N) (a : Fin 2), win0_15.index t a = 0 := (by decide +kernel : ∀ (t : Fin grid0.N) (a : Fin 2), _)
theorem idx0_16 : ∀ (t : Fin cfg0.N) (a : Fin 2), win0_16.index t a = 0 := (by decide +kernel : ∀ (t : Fin grid0.N) (a : Fin 2), _)
theorem idx0_17 : ∀ (t : Fin cfg0.N) (a : Fin 2), win0_17.index t a = 0 := (by decide +kernel : ∀ (t : Fin grid0.N) (a : Fin 2), _)

/-! ## The blocks read -/

/-- Row `p` of the observation block at point `t` is row `512 t + p` of the observations. -/
theorem blk_inp (c : Dev nD) (t : Fin cfg0.N) (p : Fin 512) (k : Fin 512) (r : Fin 32768) (hr : r.val = t.val * 512 + p.val) :
    (iblk m c 0 t : Vec Ideal S512x512 .f32) (ix2 p k) = (m ((c : Thread nD τ).loc main_arg0) : S32768x512.Idx → Elt Ideal .f32) (ix2 r k) := by
  unfold iblk
  rw [View.read_apply]
  show V m c main_arg0 _ = _
  rw [V_main_arg0]
  congr 1
  funext a
  apply Fin.ext
  obtain ⟨e0, e1, -⟩ := idx_rows t
  match a with
  | ⟨0, _⟩ => show win0_0.index t (0 : Fin 2) * 512 + 1 * p.val = r.val; rw [e0, hr]; omega
  | ⟨1, _⟩ => show win0_0.index t (1 : Fin 2) * 512 + 1 * k.val = k.val; rw [e1]; omega

/-- Row `p` of the hidden-state block at point `t` is row `512 t + p` of the hidden states. -/
theorem blk_hid (c : Dev nD) (t : Fin cfg0.N) (p : Fin 512) (k : Fin 1024) (r : Fin 32768) (hr : r.val = t.val * 512 + p.val) :
    (iblk m c 1 t : Vec Ideal S512x1024 .f32) (ix2 p k) = (m ((c : Thread nD τ).loc main_arg1) : S32768x1024.Idx → Elt Ideal .f32) (ix2 r k) := by
  unfold iblk
  rw [View.read_apply]
  show V m c main_arg1 _ = _
  rw [V_main_arg1]
  congr 1
  funext a
  apply Fin.ext
  obtain ⟨-, -, e2, e3, -⟩ := idx_rows t
  match a with
  | ⟨0, _⟩ => show win0_1.index t (0 : Fin 2) * 512 + 1 * p.val = r.val; rw [e2, hr]; omega
  | ⟨1, _⟩ => show win0_1.index t (1 : Fin 2) * 1024 + 1 * k.val = k.val; rw [e3]; omega

theorem blk_w1 (c : Dev nD) (t : Fin cfg0.N) (k : Fin 512) (q : Fin 1024) :
    (iblk m c 2 t : Vec Ideal S512x1024 .bf16) (ix2 k q) = (m ((c : Thread nD τ).loc main_arg2) : FVec Ideal S1024x512 .f32) (ix2 q k) := by
  unfold iblk
  rw [View.read_apply]
  show V m c main_v1 _ = _
  rw [V_w1]
  have he : ((cfg0.win 2).blk t).view.emb (ix2 k q) = ix2 k q :=
    funext fun a => Fin.ext (win0_2.rect_emb_val_of_index_zero t a (idx0_2 t a) _)
  rw [he, truncf_apply, transpose_ix2_apply]

theorem blk_b1 (c : Dev nD) (t : Fin cfg0.N) (q : Fin 1024) :
    (iblk m c 3 t : Vec Ideal S1x1024 .f32) (ix2 (0 : Fin 1) q) = (m ((c : Thread nD τ).loc main_arg3) : FVec Ideal S1024 .f32) (ix1 q) := by
  unfold iblk
  rw [View.read_apply]
  show V m c main_v16 _ = _
  rw [V_b1]
  have he : ((cfg0.win 3).blk t).view.emb (ix2 (0 : Fin 1) q) = ix2 (0 : Fin 1) q :=
    funext fun a => Fin.ext (win0_3.rect_emb_val_of_index_zero t a (idx0_3 t a) _)
  rw [he, shapeCast_a_1a_apply]

theorem blk_wxr (c : Dev nD) (t : Fin cfg0.N) (k q : Fin 1024) :
    (iblk m c 4 t : Vec Ideal S1024x1024 .bf16) (ix2 k q) = (m ((c : Thread nD τ).loc main_arg4) : FVec Ideal S1024x1024 .f32) (ix2 q k) := by
  unfold iblk
  rw [View.read_apply]
  show V m c main_v3 _ = _
  rw [V_wxr]
  have he : ((cfg0.win 4).blk t).view.emb (ix2 k q) = ix2 k q :=
    funext fun a => Fin.ext (win0_4.rect_emb_val_of_index_zero t a (idx0_4 t a) _)
  rw [he, truncf_apply, transpose_ix2_apply]

theorem blk_bxr (c : Dev nD) (t : Fin cfg0.N) (q : Fin 1024) :
    (iblk m c 5 t : Vec Ideal S1x1024 .f32) (ix2 (0 : Fin 1) q) = (m ((c : Thread nD τ).loc main_arg5) : FVec Ideal S1024 .f32) (ix1 q) := by
  unfold iblk
  rw [View.read_apply]
  show V m c main_v17 _ = _
  rw [V_bxr]
  have he : ((cfg0.win 5).blk t).view.emb (ix2 (0 : Fin 1) q) = ix2 (0 : Fin 1) q :=
    funext fun a => Fin.ext (win0_5.rect_emb_val_of_index_zero t a (idx0_5 t a) _)
  rw [he, shapeCast_a_1a_apply]

theorem blk_whr (c : Dev nD) (t : Fin cfg0.N) (k q : Fin 1024) :
    (iblk m c 6 t : Vec Ideal S1024x1024 .bf16) (ix2 k q) = (m ((c : Thread nD τ).loc main_arg6) : FVec Ideal S1024x1024 .f32) (ix2 q k) := by
  unfold iblk
  rw [View.read_apply]
  show V m c main_v5 _ = _
  rw [V_whr]
  have he : ((cfg0.win 6).blk t).view.emb (ix2 k q) = ix2 k q :=
    funext fun a => Fin.ext (win0_6.rect_emb_val_of_index_zero t a (idx0_6 t a) _)
  rw [he, truncf_apply, transpose_ix2_apply]

theorem blk_bhr (c : Dev nD) (t : Fin cfg0.N) (q : Fin 1024) :
    (iblk m c 7 t : Vec Ideal S1x1024 .f32) (ix2 (0 : Fin 1) q) = (m ((c : Thread nD τ).loc main_arg7) : FVec Ideal S1024 .f32) (ix1 q) := by
  unfold iblk
  rw [View.read_apply]
  show V m c main_v18 _ = _
  rw [V_bhr]
  have he : ((cfg0.win 7).blk t).view.emb (ix2 (0 : Fin 1) q) = ix2 (0 : Fin 1) q :=
    funext fun a => Fin.ext (win0_7.rect_emb_val_of_index_zero t a (idx0_7 t a) _)
  rw [he, shapeCast_a_1a_apply]

theorem blk_wxz (c : Dev nD) (t : Fin cfg0.N) (k q : Fin 1024) :
    (iblk m c 8 t : Vec Ideal S1024x1024 .bf16) (ix2 k q) = (m ((c : Thread nD τ).loc main_arg8) : FVec Ideal S1024x1024 .f32) (ix2 q k) := by
  unfold iblk
  rw [View.read_apply]
  show V m c main_v7 _ = _
  rw [V_wxz]
  have he : ((cfg0.win 8).blk t).view.emb (ix2 k q) = ix2 k q :=
    funext fun a => Fin.ext (win0_8.rect_emb_val_of_index_zero t a (idx0_8 t a) _)
  rw [he, truncf_apply, transpose_ix2_apply]

theorem blk_bxz (c : Dev nD) (t : Fin cfg0.N) (q : Fin 1024) :
    (iblk m c 9 t : Vec Ideal S1x1024 .f32) (ix2 (0 : Fin 1) q) = (m ((c : Thread nD τ).loc main_arg9) : FVec Ideal S1024 .f32) (ix1 q) := by
  unfold iblk
  rw [View.read_apply]
  show V m c main_v19 _ = _
  rw [V_bxz]
  have he : ((cfg0.win 9).blk t).view.emb (ix2 (0 : Fin 1) q) = ix2 (0 : Fin 1) q :=
    funext fun a => Fin.ext (win0_9.rect_emb_val_of_index_zero t a (idx0_9 t a) _)
  rw [he, shapeCast_a_1a_apply]

theorem blk_whz (c : Dev nD) (t : Fin cfg0.N) (k q : Fin 1024) :
    (iblk m c 10 t : Vec Ideal S1024x1024 .bf16) (ix2 k q) = (m ((c : Thread nD τ).loc main_arg10) : FVec Ideal S1024x1024 .f32) (ix2 q k) := by
  unfold iblk
  rw [View.read_apply]
  show V m c main_v9 _ = _
  rw [V_whz]
  have he : ((cfg0.win 10).blk t).view.emb (ix2 k q) = ix2 k q :=
    funext fun a => Fin.ext (win0_10.rect_emb_val_of_index_zero t a (idx0_10 t a) _)
  rw [he, truncf_apply, transpose_ix2_apply]

theorem blk_bhz (c : Dev nD) (t : Fin cfg0.N) (q : Fin 1024) :
    (iblk m c 11 t : Vec Ideal S1x1024 .f32) (ix2 (0 : Fin 1) q) = (m ((c : Thread nD τ).loc main_arg11) : FVec Ideal S1024 .f32) (ix1 q) := by
  unfold iblk
  rw [View.read_apply]
  show V m c main_v20 _ = _
  rw [V_bhz]
  have he : ((cfg0.win 11).blk t).view.emb (ix2 (0 : Fin 1) q) = ix2 (0 : Fin 1) q :=
    funext fun a => Fin.ext (win0_11.rect_emb_val_of_index_zero t a (idx0_11 t a) _)
  rw [he, shapeCast_a_1a_apply]

theorem blk_wxn (c : Dev nD) (t : Fin cfg0.N) (k q : Fin 1024) :
    (iblk m c 12 t : Vec Ideal S1024x1024 .bf16) (ix2 k q) = (m ((c : Thread nD τ).loc main_arg12) : FVec Ideal S1024x1024 .f32) (ix2 q k) := by
  unfold iblk
  rw [View.read_apply]
  show V m c main_v11 _ = _
  rw [V_wxn]
  have he : ((cfg0.win 12).blk t).view.emb (ix2 k q) = ix2 k q :=
    funext fun a => Fin.ext (win0_12.rect_emb_val_of_index_zero t a (idx0_12 t a) _)
  rw [he, truncf_apply, transpose_ix2_apply]

theorem blk_bxn (c : Dev nD) (t : Fin cfg0.N) (q : Fin 1024) :
    (iblk m c 13 t : Vec Ideal S1x1024 .f32) (ix2 (0 : Fin 1) q) = (m ((c : Thread nD τ).loc main_arg13) : FVec Ideal S1024 .f32) (ix1 q) := by
  unfold iblk
  rw [View.read_apply]
  show V m c main_v21 _ = _
  rw [V_bxn]
  have he : ((cfg0.win 13).blk t).view.emb (ix2 (0 : Fin 1) q) = ix2 (0 : Fin 1) q :=
    funext fun a => Fin.ext (win0_13.rect_emb_val_of_index_zero t a (idx0_13 t a) _)
  rw [he, shapeCast_a_1a_apply]

theorem blk_whn (c : Dev nD) (t : Fin cfg0.N) (k q : Fin 1024) :
    (iblk m c 14 t : Vec Ideal S1024x1024 .bf16) (ix2 k q) = (m ((c : Thread nD τ).loc main_arg14) : FVec Ideal S1024x1024 .f32) (ix2 q k) := by
  unfold iblk
  rw [View.read_apply]
  show V m c main_v13 _ = _
  rw [V_whn]
  have he : ((cfg0.win 14).blk t).view.emb (ix2 k q) = ix2 k q :=
    funext fun a => Fin.ext (win0_14.rect_emb_val_of_index_zero t a (idx0_14 t a) _)
  rw [he, truncf_apply, transpose_ix2_apply]

theorem blk_bhn (c : Dev nD) (t : Fin cfg0.N) (q : Fin 1024) :
    (iblk m c 15 t : Vec Ideal S1x1024 .f32) (ix2 (0 : Fin 1) q) = (m ((c : Thread nD τ).loc main_arg15) : FVec Ideal S1024 .f32) (ix1 q) := by
  unfold iblk
  rw [View.read_apply]
  show V m c main_v22 _ = _
  rw [V_bhn]
  have he : ((cfg0.win 15).blk t).view.emb (ix2 (0 : Fin 1) q) = ix2 (0 : Fin 1) q :=
    funext fun a => Fin.ext (win0_15.rect_emb_val_of_index_zero t a (idx0_15 t a) _)
  rw [he, shapeCast_a_1a_apply]

theorem blk_w2 (c : Dev nD) (t : Fin cfg0.N) (k : Fin 1024) (a : Fin 128) :
    (iblk m c 16 t : Vec Ideal S1024x128 .bf16) (ix2 k a) = (m ((c : Thread nD τ).loc main_arg16) : FVec Ideal S128x1024 .f32) (ix2 a k) := by
  unfold iblk
  rw [View.read_apply]
  show V m c main_v15 _ = _
  rw [V_w2]
  have he : ((cfg0.win 16).blk t).view.emb (ix2 k a) = ix2 k a :=
    funext fun b => Fin.ext (win0_16.rect_emb_val_of_index_zero t b (idx0_16 t b) _)
  rw [he, truncf_apply, transpose_ix2_apply]

theorem blk_b2 (c : Dev nD) (t : Fin cfg0.N) (a : Fin 128) :
    (iblk m c 17 t : Vec Ideal S1x128 .f32) (ix2 (0 : Fin 1) a) = (m ((c : Thread nD τ).loc main_arg17) : FVec Ideal S128 .f32) (ix1 a) := by
  unfold iblk
  rw [View.read_apply]
  show V m c main_v23 _ = _
  rw [V_b2]
  have he : ((cfg0.win 17).blk t).view.emb (ix2 (0 : Fin 1) a) = ix2 (0 : Fin 1) a :=
    funext fun b => Fin.ext (win0_17.rect_emb_val_of_index_zero t b (idx0_17 t b) _)
  rw [he, shapeCast_a_1a_apply]

/-! ## The specification at the launch memory -/

/-- The cell's weights as launched. -/
def params (c : Dev nD) : Params where
  W1 := m ((c : Thread nD τ).loc main_arg2)
  b1 := m ((c : Thread nD τ).loc main_arg3)
  Wxr := m ((c : Thread nD τ).loc main_arg4)
  bxr := m ((c : Thread nD τ).loc main_arg5)
  Whr := m ((c : Thread nD τ).loc main_arg6)
  bhr := m ((c : Thread nD τ).loc main_arg7)
  Wxz := m ((c : Thread nD τ).loc main_arg8)
  bxz := m ((c : Thread nD τ).loc main_arg9)
  Whz := m ((c : Thread nD τ).loc main_arg10)
  bhz := m ((c : Thread nD τ).loc main_arg11)
  Wxn := m ((c : Thread nD τ).loc main_arg12)
  bxn := m ((c : Thread nD τ).loc main_arg13)
  Whn := m ((c : Thread nD τ).loc main_arg14)
  bhn := m ((c : Thread nD τ).loc main_arg15)
  W2 := m ((c : Thread nD τ).loc main_arg16)
  b2 := m ((c : Thread nD τ).loc main_arg17)

/-- The new hidden states of all 32768 rows. -/
def hOut (c : Dev nD) : Buf (Elt Ideal) ((c : Thread nD τ).loc main_v24_0) :=
  hArr (params m c) (m ((c : Thread nD τ).loc main_arg0)) (m ((c : Thread nD τ).loc main_arg1))

/-- The action values of all 32768 rows. -/
def qOut (c : Dev nD) : Buf (Elt Ideal) ((c : Thread nD τ).loc main_v24_1) :=
  qArr (params m c) (m ((c : Thread nD τ).loc main_arg0)) (m ((c : Thread nD τ).loc main_arg1))

/-- At every grid point the weight blocks are read as the kernel-side lemmas ask. -/
theorem reads (c : Dev nD) (t : Fin cfg0.N) :
    Kern.Reads (params m c) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) (iblk m c 14 t) (iblk m c 15 t) (iblk m c 16 t)
      (iblk m c 17 t) :=
  ⟨blk_w1 m c t, blk_b1 m c t, blk_wxr m c t, blk_bxr m c t, blk_whr m c t, blk_bhr m c t, blk_wxz m c t, blk_bxz m c t,
    blk_whz m c t, blk_bhz m c t, blk_wxn m c t, blk_bxn m c t, blk_whn m c t, blk_bhn m c t, blk_w2 m c t, blk_b2 m c t⟩

/-! ## What a grid point writes back -/

theorem hz : (![0, 0] : Fin 2 → Nat) = fun _ => 0 := funext fun a => by fin_cases a <;> rfl

/-- The hidden-state block the body stores at point `t`, at a block index `y`: the specification's new hidden state at the array
    index `i` that sits `512 t` rows below. -/
theorem hblock (c : Dev nD) (t : Fin cfg0.N) (y : S512x1024.Idx) (i : S32768x1024.Idx)
    (h0 : (i 0).val = t.val * 512 + (y 0).val) (h1 : (i 1).val = (y 1).val) :
    k0_pay6 (iblk m c 1 t) (k0_pay2 (iblk m c 1 t)) (k0_pay3 (iblk m c 0 t) (iblk m c 2 t) (iblk m c 3 t))
        (k0_pay4 (iblk m c 0 t) (iblk m c 1 t) (iblk m c 2 t) (iblk m c 3 t) (iblk m c 4 t) (iblk m c 5 t) (iblk m c 6 t) (iblk m c 7 t))
        (k0_pay5 (iblk m c 0 t) (iblk m c 2 t) (iblk m c 3 t) (iblk m c 8 t)) (iblk m c 9 t) (iblk m c 10 t) (iblk m c 11 t)
        (iblk m c 14 t) (iblk m c 15 t) (iblk m c 12 t) (iblk m c 13 t) y
      = hOut m c i := by
  obtain ⟨p, q, rfl⟩ : ∃ (p : Fin 512) (q : Fin 1024), y = ix2 p q := ⟨y 0, y 1, eq_ix2 y⟩
  obtain ⟨r, q', rfl⟩ : ∃ (r : Fin 32768) (q' : Fin 1024), i = ix2 r q' := ⟨i 0, i 1, eq_ix2 i⟩
  have hq : q' = q := Fin.ext h1
  subst hq
  have hr : r.val = t.val * 512 + p.val := h0
  refine (Kern.hNew_apply (reads m c t) (iblk m c 0 t) (iblk m c 1 t) p q').trans ?_
  show hNew _ _ _ q' = hNew _ _ _ q'
  congr 1
  · funext k; exact blk_inp m c t p k r hr
  · funext k; exact blk_hid m c t p k r hr

/-- The action-value block the body stores at point `t`, likewise. -/
theorem qblock (c : Dev nD) (t : Fin cfg0.N) (y : S512x128.Idx) (i : S32768x128.Idx)
    (h0 : (i 0).val = t.val * 512 + (y 0).val) (h1 : (i 1).val = (y 1).val) :
    k0_pay1 (k0_pay7 (iblk m c 1 t) (k0_pay2 (iblk m c 1 t)) (k0_pay3 (iblk m c 0 t) (iblk m c 2 t) (iblk m c 3 t))
        (k0_pay4 (iblk m c 0 t) (iblk m c 1 t) (iblk m c 2 t) (iblk m c 3 t) (iblk m c 4 t) (iblk m c 5 t) (iblk m c 6 t) (iblk m c 7 t))
        (k0_pay5 (iblk m c 0 t) (iblk m c 2 t) (iblk m c 3 t) (iblk m c 8 t)) (iblk m c 9 t) (iblk m c 10 t) (iblk m c 11 t)
        (iblk m c 14 t) (iblk m c 15 t) (iblk m c 12 t) (iblk m c 13 t))
        (k0_pay8 (iblk m c 16 t)) (constant S512x128 .f32 0x00000000#32) (iblk m c 17 t) y
      = qOut m c i := by
  obtain ⟨p, a, rfl⟩ : ∃ (p : Fin 512) (a : Fin 128), y = ix2 p a := ⟨y 0, y 1, eq_ix2 y⟩
  obtain ⟨r, a', rfl⟩ : ∃ (r : Fin 32768) (a' : Fin 128), i = ix2 r a' := ⟨i 0, i 1, eq_ix2 i⟩
  have ha : a' = a := Fin.ext h1
  subst ha
  have hr : r.val = t.val * 512 + p.val := h0
  refine (Kern.qVal_apply (reads m c t) (iblk m c 0 t) (iblk m c 1 t) p a').trans ?_
  show qVal _ _ _ a' = qVal _ _ _ a'
  congr 1
  · funext k; exact blk_inp m c t p k r hr
  · funext k; exact blk_hid m c t p k r hr

/-- What point `t` writes back to the hidden-state array is block `t` of `hOut`. -/
theorem flushed18_eq (c : Dev nD) (t : Fin cfg0.N) :
    (dats m 0 c).flushed 18 t = ((cfg0.win 18).blk t).view.read (Elt Ideal) (hOut m c) := by
  rw [Value.flushed18]
  unfold out0_18
  rw [View.canon_unit_zero hz]
  simp only [View.ld_unit_zero (S := S512x512) hz, View.ld_unit_zero (S := S512x1024) hz, View.ld_unit_zero (S := S1x1024) hz,
    View.ld_unit_zero (S := S1024x1024) hz]
  funext j
  rw [View.read_apply]
  obtain ⟨-, -, -, -, e4, e5, -⟩ := idx_rows t
  refine hblock m c t _ _ ?_ ?_
  · show win0_18.index t (0 : Fin 2) * 512 + 1 * (j 0).val = t.val * 512 + (j 0).val
    rw [e4]; omega
  · show win0_18.index t (1 : Fin 2) * 1024 + 1 * (j 1).val = (j 1).val
    rw [e5]; omega

/-- What point `t` writes back to the action-value array is block `t` of `qOut`. -/
theorem flushed19_eq (c : Dev nD) (t : Fin cfg0.N) :
    (dats m 0 c).flushed 19 t = ((cfg0.win 19).blk t).view.read (Elt Ideal) (qOut m c) := by
  rw [Value.flushed19]
  unfold out0_19
  rw [View.canon_unit_zero hz]
  simp only [View.ld_unit_zero (S := S512x512) hz, View.ld_unit_zero (S := S512x1024) hz, View.ld_unit_zero (S := S1x1024) hz,
    View.ld_unit_zero (S := S1024x1024) hz, View.ld_unit_zero (S := S1024x128) hz, View.ld_unit_zero (S := S1x128) hz]
  funext j
  rw [View.read_apply]
  obtain ⟨-, -, -, -, -, -, e6, e7⟩ := idx_rows t
  refine qblock m c t _ _ ?_ ?_
  · show win0_19.index t (0 : Fin 2) * 512 + 1 * (j 0).val = t.val * 512 + (j 0).val
    rw [e6]; omega
  · show win0_19.index t (1 : Fin 2) * 128 + 1 * (j 1).val = (j 1).val
    rw [e7]; omega

/-! ## The 64 blocks tile each result array -/

/-- Row `r` of the hidden-state array lies in the block of point `r / 512`. -/
theorem cover18 (i : S32768x1024.Idx) :
    ∃ t : Fin cfg0.N, (cfg0.win 18).flush t = true ∧ i ∈ ((cfg0.win 18).blk t).view.set := by
  have hi0 : (i 0).val < 32768 := (i 0).isLt
  have hi1 : (i 1).val < 1024 := (i 1).isLt
  have hN : cfg0.N = 64 := N_0
  have ht : (i 0).val / 512 < cfg0.N := by rw [hN]; omega
  obtain ⟨-, -, -, -, e4, e5, -⟩ := idx_rows ⟨(i 0).val / 512, ht⟩
  refine ⟨⟨(i 0).val / 512, ht⟩, flush0_18 _, ?_⟩
  show i ∈ ((View.whole main_v24_0).slice (win0_18.rect ⟨(i 0).val / 512, ht⟩)).set
  rw [View.set_slice_whole, Rect.mem_set_unit]
  intro a
  match a with
  | ⟨0, _⟩ =>
    show win0_18.index ⟨(i 0).val / 512, ht⟩ (0 : Fin 2) * 512 ≤ (i 0).val
      ∧ (i 0).val < win0_18.index ⟨(i 0).val / 512, ht⟩ (0 : Fin 2) * 512 + 512
    rw [e4]; show (i 0).val / 512 * 512 ≤ (i 0).val ∧ (i 0).val < (i 0).val / 512 * 512 + 512; omega
  | ⟨1, _⟩ =>
    show win0_18.index ⟨(i 0).val / 512, ht⟩ (1 : Fin 2) * 1024 ≤ (i 1).val
      ∧ (i 1).val < win0_18.index ⟨(i 0).val / 512, ht⟩ (1 : Fin 2) * 1024 + 1024
    rw [e5]; omega

/-- Row `r` of the action-value array lies in the block of point `r / 512`. -/
theorem cover19 (i : S32768x128.Idx) :
    ∃ t : Fin cfg0.N, (cfg0.win 19).flush t = true ∧ i ∈ ((cfg0.win 19).blk t).view.set := by
  have hi0 : (i 0).val < 32768 := (i 0).isLt
  have hi1 : (i 1).val < 128 := (i 1).isLt
  have hN : cfg0.N = 64 := N_0
  have ht : (i 0).val / 512 < cfg0.N := by rw [hN]; omega
  obtain ⟨-, -, -, -, -, -, e6, e7⟩ := idx_rows ⟨(i 0).val / 512, ht⟩
  refine ⟨⟨(i 0).val / 512, ht⟩, flush0_19 _, ?_⟩
  show i ∈ ((View.whole main_v24_1).slice (win0_19.rect ⟨(i 0).val / 512, ht⟩)).set
  rw [View.set_slice_whole, Rect.mem_set_unit]
  intro a
  match a with
  | ⟨0, _⟩ =>
    show win0_19.index ⟨(i 0).val / 512, ht⟩ (0 : Fin 2) * 512 ≤ (i 0).val
      ∧ (i 0).val < win0_19.index ⟨(i 0).val / 512, ht⟩ (0 : Fin 2) * 512 + 512
    rw [e6]; show (i 0).val / 512 * 512 ≤ (i 0).val ∧ (i 0).val < (i 0).val / 512 * 512 + 512; omega
  | ⟨1, _⟩ =>
    show win0_19.index ⟨(i 0).val / 512, ht⟩ (1 : Fin 2) * 128 ≤ (i 1).val
      ∧ (i 1).val < win0_19.index ⟨(i 0).val / 512, ht⟩ (1 : Fin 2) * 128 + 128
    rw [e7]; omega

/-- After the run the hidden-state array holds `hOut`. -/
theorem final18 (c : Dev nD) : (dats m 0 c).arrAt 18 cfg0.N = hOut m c :=
  (dats m 0 c).arrAt_eq_of_cover 18 (hOut m c) (fun t _ => flushed18_eq m c t) cover18

/-- After the run the action-value array holds `qOut`. -/
theorem final19 (c : Dev nD) : (dats m 0 c).arrAt 19 cfg0.N = qOut m c :=
  (dats m 0 c).arrAt_eq_of_cover 19 (qOut m c) (fun t _ => flushed19_eq m c t) cover19

/-! ## The run, read -/

/-- The kernel's run ends with the two results at the specification's arrays, action values first, and the arguments unchanged. -/
theorem run : θ_run defs (onTc (τ := τ) (main (F := Ideal))) ⟨m, fun _ => 0, ρ⟩ fun r => ∀ c : Dev nD,
      r.2.mem ((c : Thread nD τ).loc main_v24_1) = qOut m c
      ∧ r.2.mem ((c : Thread nD τ).loc main_v24_0) = hOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun _ h c => ⟨(h c).2.1.trans (final19 m c), (h c).1.trans (final18 m c), (h c).2.2⟩)
    (Value.run_blocks m ρ)

end Cert.Gru.Blocks

end
-- ==== Proof.LibLayout.lean ====
import proofs.«115798_j61040075211058_1_alg».proof.Proof.LibDenseDefs
import Idealize.ShloMosaic.PureOps.Ideal.Laws
import Idealize.ShloMosaic.Lib.ValueLayout
import Idealize.ShloMosaic.Lib.Pipeline.Value
import Idealize.ShloMosaic.Lib.StableHlo.Predicate

/-!
# Bias, `relu` and the column join, in the host's spelling and in a kernel's, read at an entry

* the bias of a row vector, as the host spells it (`broadcast_in_dim` twice: `[N] → [1, N] → [M, N]`) and as a kernel
  spells it (`shape_cast` to `[1, N]`, `broadcast` to `[M, N]`): both are `b[q]` at `(p, q)`;
* `max · 0` against the zero splat, in the host's and in a kernel's spelling: `relu` entry by entry;
* `concatenate` of two arrays along the columns: `cat`.
-/

noncomputable section

namespace Cert.LibDense

open Idealize.ShloMosaic Idealize.ShloMosaic.ValueIdx

/-! ## The bias read at an entry -/

/-- The host's bias: a row vector broadcast `[N] → [1, N] → [M, N]` reads `b[q]` at `(p, q)`. -/
theorem hostBias_apply {α : Type} (M N : Nat) (h₁ : (⟨1, ![N]⟩ : Shape).BroadcastsInDim ⟨2, ![1, N]⟩ ![1])
    (h₂ : (⟨2, ![1, N]⟩ : Shape).BroadcastsInDim ⟨2, ![M, N]⟩ ![0, 1]) (b : (⟨1, ![N]⟩ : Shape).Idx → α) (p : Fin M) (q : Fin N) :
    broadcastInDim ⟨2, ![M, N]⟩ ![0, 1] h₂ (broadcastInDim ⟨2, ![1, N]⟩ ![1] h₁ b) (ix2 p q) = b (ix1 q) := by
  -- the two spellings of the index (p, q), and of the index q, are the same function of the coordinate
  have e2 : (ix2 p q : (⟨2, ![M, N]⟩ : Shape).Idx) = StableHlo.Predicate.ij p q := by
    funext a; match a with | ⟨0, _⟩ => rfl | ⟨1, _⟩ => rfl
  have e1 : (ix1 q : (⟨1, ![N]⟩ : Shape).Idx) = Shape.Idx.ofFin q := by
    funext a; match a with | ⟨0, _⟩ => rfl
  rw [e2, e1]
  exact StableHlo.Predicate.bcast_cols h₁ h₂ b p q

/-- A kernel's bias: a row vector shape-cast to `[1, N]` and broadcast to `[M, N]` reads `b[q]` at `(p, q)`. -/
theorem kernBias_apply {α : Type} (M N : Nat) (hc : (⟨1, ![N]⟩ : Shape).ShapeCasts ⟨2, ![1, N]⟩)
    (hb : (⟨2, ![1, N]⟩ : Shape).Broadcasts ⟨2, ![M, N]⟩) (b : (⟨1, ![N]⟩ : Shape).Idx → α) (p : Fin M) (q : Fin N) :
    broadcastTo ⟨2, ![M, N]⟩ (shapeCast ⟨2, ![1, N]⟩ b hc) hb (ix2 p q) = b (ix1 q) := by
  have hq := q.isLt
  -- the broadcast reads the [1, N] row at (0, q): axis 0 of the row is a unit axis, axis 1 keeps the column
  refine (broadcastTo_apply (shapeCast ⟨2, ![1, N]⟩ b hc) hb (ix2 p q) (ix2 (0 : Fin 1) q) ?_).trans ?_
  · intro a
    match a with
    | ⟨0, _⟩ => exact (if_pos rfl).symm
    | ⟨1, _⟩ =>
      show q.val = if N = 1 then 0 else q.val
      split
      · omega
      · rfl
  -- the shape cast keeps the row-major position: 0 * N + q = q
  · refine shapeCast_apply b hc (ix2 (0 : Fin 1) q) (ix1 q) ?_
    rw [Shape.rowMajor_val_one, Shape.rowMajor_val_two]
    show q.val = 0 * N + q.val
    omega

/-! ## `relu` in the two spellings -/

/-- The host's `maximum(x, broadcast(0.0))` is `relu` entry by entry. -/
theorem hostRelu_eq {s : Shape} (h : (⟨0, ![]⟩ : Shape).BroadcastsInDim s ![]) (x : FVec Ideal s .f32) :
    maximumf x (broadcastInDim s ![] h (constant (F := Ideal) (⟨0, ![]⟩ : Shape) .f32 0x00000000#32)) = reluM x := by
  funext i
  show max (x i) (broadcastInDim s ![] h (constant (F := Ideal) (⟨0, ![]⟩ : Shape) .f32 0x00000000#32) i) = relu (x i)
  rw [StableHlo.Predicate.bcast_scalar h (by decide) _ i, constant_apply, Ideal.ofBits_zero_f32]
  rfl

/-- A kernel's `maximumf(x, broadcast 0.0)` is `relu` entry by entry. -/
theorem kernRelu_eq {s : Shape} (x : FVec Ideal s .f32) :
    maximumf x (broadcast s (Scalar.ofBits (F := Ideal) .f32 0x00000000#32)) = reluM x := by
  funext i
  show max (x i) (Ideal.ofBits .f32 0x00000000#32) = relu (x i)
  rw [Ideal.ofBits_zero_f32]
  rfl

/-! ## The column join -/

/-- `concatenate` of two arrays along the columns is `cat`. -/
theorem concat_eq (M A B : Nat) (h : Shape.Concatenates [(⟨2, ![M, A]⟩ : Shape), (⟨2, ![M, B]⟩ : Shape)] (⟨2, ![M, A + B]⟩ : Shape) 1)
    (s : Mat M A) (d : Mat M B) :
    concatenate (⟨2, ![M, A + B]⟩ : Shape) 1 [⟨(⟨2, ![M, A]⟩ : Shape), s⟩, ⟨(⟨2, ![M, B]⟩ : Shape), d⟩] h = cat s d := by
  funext i
  have hi1 : (i 1).val < A + B := (i 1).isLt
  unfold cat
  by_cases hlt : (i 1).val < A
  -- a column below A lies in the first piece, at the same coordinates
  · rw [dif_pos hlt]
    refine concatenate_pair_apply_left (1 : Fin 2) s d h i rfl (ix2 (i 0) ⟨(i 1).val, hlt⟩) ?_
    intro b
    match b with
    | ⟨0, _⟩ => rfl
    | ⟨1, _⟩ => rfl
  -- a column at or past A lies in the second piece, A columns to the left
  · rw [dif_neg hlt]
    refine concatenate_pair_apply_right (1 : Fin 2) s d h i rfl rfl (ix2 (i 0) ⟨(i 1).val - A, by omega⟩) ?_ ?_
    · intro b hb
      match b, hb with
      | ⟨0, _⟩, _ => rfl
      | ⟨1, _⟩, hb => exact absurd rfl hb
    · show (i 1).val - A + A = (i 1).val
      omega

end Cert.LibDense

end
-- ==== Proof.GruRef.lean ====
import proofs.«115798_j61040075211058_1_alg».proof.Proof.GruSpec
import proofs.«115798_j61040075211058_1_alg».proof.Proof.LibLayout
import proofs.«115798_j61040075211058_1_alg».proof.Proof.Gen.ReferenceIdeal.Read
import Idealize.ShloMosaic.Lib.ValueLayout
import Idealize.ShloMosaic.Lib.IdealHost
import Idealize.ShloMosaic.Lib.StableHlo.Predicate

/-!
# The reference program's two results, entry by entry

The reference computes on all 32768 rows at once. Each of its dense layers is a `dot_general` against the weight transposed
plus the bias broadcast over the rows: at entry `(r, q)` the dense layer of the specification on row `r`. It spells the logistic
function out, `1 / (1 + e^(-t))`, and sums the four terms of a gate from the left, `((a + b) + c) + d`, where the
specification has `(a + b) + (c + d)`: addition of extended reals is associative.
-/

noncomputable section

namespace Cert.Gru.Ref

open Idealize.ShloMosaic Idealize.ShloMosaic.ValueIdx Idealize.ShloMosaic.TcCoe Cert.LibDense Cert.Gru
open Cert.ReferenceIdeal Cert.ReferenceIdeal.Gen Cert.ReferenceIdeal.Read

/-! ## The printed contraction records are the plain contraction -/

theorem dot_in : dot_S32768x512_S512x1024_S32768x1024_1_0_0_1_n_n = DotDims.plain 32768 512 1024 := rfl
theorem dot_hid : dot_S32768x1024_S1024x1024_S32768x1024_1_0_0_1_n_n = DotDims.plain 32768 1024 1024 := rfl
theorem dot_out : dot_S32768x1024_S1024x128_S32768x128_1_0_0_1_n_n = DotDims.plain 32768 1024 128 := rfl

/-! ## The stages -/

section

variable (x0 : FVec Ideal S32768x512 .f32) (x1 : FVec Ideal S32768x1024 .f32) (x2 : FVec Ideal S1024x512 .f32) (x3 : FVec Ideal S1024 .f32)
  (x4 : FVec Ideal S1024x1024 .f32) (x5 : FVec Ideal S1024 .f32) (x6 : FVec Ideal S1024x1024 .f32) (x7 : FVec Ideal S1024 .f32)
  (x8 : FVec Ideal S1024x1024 .f32) (x9 : FVec Ideal S1024 .f32) (x10 : FVec Ideal S1024x1024 .f32) (x11 : FVec Ideal S1024 .f32)
  (x12 : FVec Ideal S1024x1024 .f32) (x13 : FVec Ideal S1024 .f32) (x14 : FVec Ideal S1024x1024 .f32) (x15 : FVec Ideal S1024 .f32)
  (x16 : FVec Ideal S128x1024 .f32) (x17 : FVec Ideal S128 .f32)

/-- The cell's weights, from the reference's arguments. -/
abbrev P : Params := ⟨x2, x3, x4, x5, x6, x7, x8, x9, x10, x11, x12, x13, x14, x15, x16, x17⟩

/-- The features of row `r`. -/
theorem feat_ref (r : Fin 32768) (k : Fin 1024) :
    val_main_v5 (F := Ideal) x0 x2 x3 (ix2 r k) = feat (P x2 x3 x4 x5 x6 x7 x8 x9 x10 x11 x12 x13 x14 x15 x16 x17) (row x0 r) k := by
  unfold val_main_v5 val_main_v4 val_main_v3 val_main_v2 val_main_v1 val_main_v0 val_main_call0_v0 val_main_call0_cst
  rw [dot_in]
  simp only [maximumf_apply, addf_apply]
  rw [hostProd_apply none _ x0 x2 (row x0 r) r k (fun _ => rfl), hostBias_apply, hostSplat_apply, Ideal.ofBits_zero_f32]
  rfl

/-- The reset gate of row `r`. -/
theorem gateR_ref (r : Fin 32768) (q : Fin 1024) :
    val_main_v22 (F := Ideal) x0 x1 x2 x3 x4 x5 x6 x7 (ix2 r q)
      = gateR (P x2 x3 x4 x5 x6 x7 x8 x9 x10 x11 x12 x13 x14 x15 x16 x17) (feat (P x2 x3 x4 x5 x6 x7 x8 x9 x10 x11 x12 x13 x14 x15 x16 x17) (row x0 r)) (row x1 r) q := by
  unfold val_main_v22 val_main_v21 val_main_cst_0 val_main_v20 val_main_v19 val_main_cst val_main_v18 val_main_v17 val_main_v16
    val_main_v15 val_main_v14 val_main_v13 val_main_v12 val_main_v11 val_main_v10 val_main_v9 val_main_v8 val_main_v7 val_main_v6
  rw [dot_hid]
  simp only [hostDivf_apply, hostExp_apply, hostNegf_apply, addf_apply]
  rw [hostProd_apply none _ (val_main_v5 (F := Ideal) x0 x2 x3) x4 (feat (P x2 x3 x4 x5 x6 x7 x8 x9 x10 x11 x12 x13 x14 x15 x16 x17) (row x0 r)) r q
      (fun k => feat_ref x0 x2 x3 x4 x5 x6 x7 x8 x9 x10 x11 x12 x13 x14 x15 x16 x17 r k),
    hostProd_apply none _ x1 x6 (row x1 r) r q (fun _ => rfl), hostBias_apply, hostBias_apply, hostSplat_apply,
    Ideal.ofBits_one_f32, add_assoc]
  rfl

/-- The update gate of row `r`. -/
theorem gateZ_ref (r : Fin 32768) (q : Fin 1024) :
    val_main_v39 (F := Ideal) x0 x1 x2 x3 x8 x9 x10 x11 (ix2 r q)
      = gateZ (P x2 x3 x4 x5 x6 x7 x8 x9 x10 x11 x12 x13 x14 x15 x16 x17) (feat (P x2 x3 x4 x5 x6 x7 x8 x9 x10 x11 x12 x13 x14 x15 x16 x17) (row x0 r)) (row x1 r) q := by
  unfold val_main_v39 val_main_v38 val_main_cst_2 val_main_v37 val_main_v36 val_main_cst_1 val_main_v35 val_main_v34 val_main_v33
    val_main_v32 val_main_v31 val_main_v30 val_main_v29 val_main_v28 val_main_v27 val_main_v26 val_main_v25 val_main_v24 val_main_v23
  rw [dot_hid]
  simp only [hostDivf_apply, hostExp_apply, hostNegf_apply, addf_apply]
  rw [hostProd_apply none _ (val_main_v5 (F := Ideal) x0 x2 x3) x8 (feat (P x2 x3 x4 x5 x6 x7 x8 x9 x10 x11 x12 x13 x14 x15 x16 x17) (row x0 r)) r q
      (fun k => feat_ref x0 x2 x3 x4 x5 x6 x7 x8 x9 x10 x11 x12 x13 x14 x15 x16 x17 r k),
    hostProd_apply none _ x1 x10 (row x1 r) r q (fun _ => rfl), hostBias_apply, hostBias_apply, hostSplat_apply,
    Ideal.ofBits_one_f32, add_assoc]
  rfl

/-- The new hidden state of row `r`: the reference's second result. -/
theorem hNew_ref (r : Fin 32768) (q : Fin 1024) :
    val_main_v57 (F := Ideal) x0 x1 x2 x3 x4 x5 x6 x7 x8 x9 x10 x11 x12 x13 x14 x15 (ix2 r q)
      = hNew (P x2 x3 x4 x5 x6 x7 x8 x9 x10 x11 x12 x13 x14 x15 x16 x17) (row x0 r) (row x1 r) q := by
  unfold val_main_v57 val_main_v56 val_main_v55 val_main_v54 val_main_v53 val_main_cst_3 val_main_v52 val_main_v51 val_main_v50
    val_main_v49 val_main_v48 val_main_v47 val_main_v46 val_main_v45 val_main_v44 val_main_v43 val_main_v42 val_main_v41 val_main_v40
  rw [dot_hid]
  simp only [hostTanh_apply, addf_apply, mulf_apply, subf_apply]
  rw [gateR_ref x0 x1 x2 x3 x4 x5 x6 x7 x8 x9 x10 x11 x12 x13 x14 x15 x16 x17 r q,
    gateZ_ref x0 x1 x2 x3 x4 x5 x6 x7 x8 x9 x10 x11 x12 x13 x14 x15 x16 x17 r q,
    hostProd_apply none _ (val_main_v5 (F := Ideal) x0 x2 x3) x12 (feat (P x2 x3 x4 x5 x6 x7 x8 x9 x10 x11 x12 x13 x14 x15 x16 x17) (row x0 r)) r q
      (fun k => feat_ref x0 x2 x3 x4 x5 x6 x7 x8 x9 x10 x11 x12 x13 x14 x15 x16 x17 r k),
    hostProd_apply none _ x1 x14 (row x1 r) r q (fun _ => rfl), hostBias_apply, hostBias_apply, hostSplat_apply,
    Ideal.ofBits_one_f32]
  rfl

/-- The action values of row `r`: the reference's first result. -/
theorem qVal_ref (r : Fin 32768) (a : Fin 128) :
    val_main_v65 (F := Ideal) x0 x1 x2 x3 x4 x5 x6 x7 x8 x9 x10 x11 x12 x13 x14 x15 x16 x17 (ix2 r a)
      = qVal (P x2 x3 x4 x5 x6 x7 x8 x9 x10 x11 x12 x13 x14 x15 x16 x17) (row x0 r) (row x1 r) a := by
  unfold val_main_v65 val_main_v64 val_main_cst_4 val_main_v63 val_main_v62 val_main_v61 val_main_v60 val_main_v59 val_main_v58
  rw [dot_out]
  simp only [hostTanh_apply, addf_apply, mulf_apply]
  rw [hostProd_apply none _ (val_main_v57 (F := Ideal) x0 x1 x2 x3 x4 x5 x6 x7 x8 x9 x10 x11 x12 x13 x14 x15) x16
      (hNew (P x2 x3 x4 x5 x6 x7 x8 x9 x10 x11 x12 x13 x14 x15 x16 x17) (row x0 r) (row x1 r)) r a
      (fun k => hNew_ref x0 x1 x2 x3 x4 x5 x6 x7 x8 x9 x10 x11 x12 x13 x14 x15 x16 x17 r k),
    hostBias_apply, hostSplat_apply]
  rfl

/-- The reference's second result is the specification's array of new hidden states. -/
theorem hArr_ref :
    val_main_v57 (F := Ideal) x0 x1 x2 x3 x4 x5 x6 x7 x8 x9 x10 x11 x12 x13 x14 x15 = hArr (P x2 x3 x4 x5 x6 x7 x8 x9 x10 x11 x12 x13 x14 x15 x16 x17) x0 x1 := by
  funext i
  obtain ⟨r, q, rfl⟩ : ∃ (r : Fin 32768) (q : Fin 1024), i = ix2 r q := ⟨i 0, i 1, eq_ix2 i⟩
  exact hNew_ref x0 x1 x2 x3 x4 x5 x6 x7 x8 x9 x10 x11 x12 x13 x14 x15 x16 x17 r q

/-- The reference's first result is the specification's array of action values. -/
theorem qArr_ref :
    val_main_v65 (F := Ideal) x0 x1 x2 x3 x4 x5 x6 x7 x8 x9 x10 x11 x12 x13 x14 x15 x16 x17 = qArr (P x2 x3 x4 x5 x6 x7 x8 x9 x10 x11 x12 x13 x14 x15 x16 x17) x0 x1 := by
  funext i
  obtain ⟨r, a, rfl⟩ : ∃ (r : Fin 32768) (a : Fin 128), i = ix2 r a := ⟨i 0, i 1, eq_ix2 i⟩
  exact qVal_ref x0 x1 x2 x3 x4 x5 x6 x7 x8 x9 x10 x11 x12 x13 x14 x15 x16 x17 r a

end

end Cert.Gru.Ref

end
-- ==== Proof.lean ====
/- A batch of 32768 rows goes through one step of a gated recurrent cell between two dense layers: features
   `x = relu (W1 · i + b1)`, gates `r`, `z` = logistic of a sum of two dense layers, candidate `n = tanh (Wxn · x + bxn + r ∗ (Whn · h + bhn))`,
   new hidden state `h' = (1 - z) ∗ n + z ∗ h`, action values `q = 10 ∗ tanh (W2 · h' + b2)` (Proof/GruSpec.lean, one row at a time).
   The kernel does it 512 rows at a grid point, on weights transposed and narrowed before the launch; on the extended reals the
   narrowing is the identity and a product into a zero accumulator is the plain sum, so each stored block is the specification on
   its rows (Proof/GruKernel.lean) and the 64 blocks tile the two result arrays (Proof/GruBlocks.lean). The reference does it on all
   rows at once, with the logistic function spelt out and a gate's four terms summed from the left (Proof/GruRef.lean). Both end
   at the specification's two arrays of the same arguments; no law beyond associativity of the sum is used, so the finiteness of
   the inputs is never opened. -/
import proofs.«115798_j61040075211058_1_alg».proof.Defs
import proofs.«115798_j61040075211058_1_alg».proof.Proof.Gen.Kernel
import proofs.«115798_j61040075211058_1_alg».proof.Proof.Gen.Kernel.Skeleton
import proofs.«115798_j61040075211058_1_alg».proof.Proof.Gen.Kernel.Launch
import proofs.«115798_j61040075211058_1_alg».proof.Proof.Gen.Kernel.Points
import proofs.«115798_j61040075211058_1_alg».proof.Proof.Gen.Kernel.Frame
import proofs.«115798_j61040075211058_1_alg».proof.Proof.Gen.KernelIdeal
import proofs.«115798_j61040075211058_1_alg».proof.Proof.Gen.KernelIdeal.Skeleton
import proofs.«115798_j61040075211058_1_alg».proof.Proof.Gen.KernelIdeal.Launch
import proofs.«115798_j61040075211058_1_alg».proof.Proof.Gen.KernelIdeal.Points
import proofs.«115798_j61040075211058_1_alg».proof.Proof.Gen.KernelIdeal.Frame
import proofs.«115798_j61040075211058_1_alg».proof.Proof.Gen.ReferenceIdeal
import proofs.«115798_j61040075211058_1_alg».proof.Proof.Gen.Pre_finite_inputs
import proofs.«115798_j61040075211058_1_alg».proof.Proof.Gen.KernelIdeal.Value
import proofs.«115798_j61040075211058_1_alg».proof.Proof.Gen.ReferenceIdeal.Run
import proofs.«115798_j61040075211058_1_alg».proof.Proof.Gen.ReferenceIdeal.Read
import proofs.«115798_j61040075211058_1_alg».proof.Proof.GruBlocks
import proofs.«115798_j61040075211058_1_alg».proof.Proof.GruRef
import Idealize.ShloMosaic.Adequacy
import Idealize.ShloMosaic.Init

noncomputable section

namespace Cert.Proof

open Idealize.ShloMosaic Idealize.SL.Sem

/-- The word-level kernel terminates without a fault and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the action values at `qOut` and the new hidden states at `hOut` of the kernel's arguments: the kernel
    by its blocks, the reference by its stages read at an entry, on arguments that agree. -/
theorem algebraic : Cert.algebraic_KernelIdeal_ReferenceIdeal := by
  intro m ρ m' ρ' _ hagree
  refine ⟨fun c => Cert.Gru.Blocks.qOut m c, fun c => Cert.Gru.Blocks.hOut m c, Cert.Gru.Blocks.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14, a15, a16, a17⟩ := hagree c
  refine ⟨(h c).1.trans ?_, (h c).2.1.trans ?_, (h c).2.2⟩
  · rw [Cert.ReferenceIdeal.Read.val_main_v65_eq, a0, a1, a2, a3, a4, a5, a6, a7, a8, a9, a10, a11, a12, a13, a14, a15, a16, a17,
      Cert.Gru.Ref.qArr_ref]
    rfl
  · rw [Cert.ReferenceIdeal.Read.val_main_v57_eq, a0, a1, a2, a3, a4, a5, a6, a7, a8, a9, a10, a11, a12, a13, a14, a15,
      Cert.Gru.Ref.hArr_ref]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
